-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S6x64 : Shape := ⟨2, ![6, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S32x4 : Shape := ⟨2, ![32, 4]⟩
abbrev S4 : Shape := ⟨1, ![4]⟩
abbrev S_ : Shape := ⟨0, ![]⟩
abbrev S1x3200000 : Shape := ⟨2, ![1, 3200000]⟩
abbrev S3200000 : Shape := ⟨1, ![3200000]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part5 {F : FTy → Type} [FloatOps F] (main_arg1 : IVec S2x3200000 32) (main_v83 : IVec S_ 1) (main_v85 : IVec S3200000 32) : IVec S_ 1 :=
  let main_c_32 : IVec S_ 32 := constantI S_ 32 0#32
  let main_v86 : IVec S3200000 32 := broadcastInDim S3200000 ![] bcast_S_S3200000 main_c_32
  let main_v87 : IVec S3200000 1 := cmpi .sge main_v85 main_v86
  let main_v88 : IVec S1x3200000 32 := (extractStridedSlice S1x3200000 ![1, 0] · slices_S2x3200000_S1x3200000_1_0) main_arg1
  let main_v89 : IVec S3200000 32 := shapeCast S3200000 main_v88 shapeCasts_S1x3200000_S3200000
  let main_c_33 : IVec S_ 32 := constantI S_ 32 100000#32
  let main_v90 : IVec S3200000 32 := broadcastInDim S3200000 ![] bcast_S_S3200000 main_c_33
  let main_v91 : IVec S3200000 1 := cmpi .slt main_v89 main_v90
  let main_v92 : IVec S3200000 1 := andi main_v87 main_v91
  let main_c_34 : IVec S_ 1 := constantI S_ 1 1#1
  let main_v93 : IVec S_ 1 := (fun x v => Host.reduce IntOp.andi x v reducesTo_S3200000_S_d0 h_S_) main_v92 main_c_34
  let main_v94 : IVec S_ 1 := andi main_v83 main_v93
  main_v94

def fn_part4 {F : FTy → Type} [FloatOps F] (main_arg1 : IVec S2x3200000 32) (main_arg15 : FVec F S32 .f32) (main_arg16 : FVec F S32x4 .f32) (main_arg17 : FVec F S4 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x4 .f32 := Host.absf main_arg16
  let main_cst_28 : FVec F S_ .f32 := constant S_ .f32 0x7F800000#32
  let main_v75 : FVec F S32x4 .f32 := broadcastInDim S32x4 ![] bcast_S_S32x4 main_cst_28
  let main_v76 : IVec S32x4 1 := cmpf .olt main_v74 main_v75
  let main_c_29 : IVec S_ 1 := constantI S_ 1 1#1
  let main_v77 : IVec S_ 1 := (fun x v => Host.reduce IntOp.andi x v reducesTo_S32x4_S_d0_1 h_S_) main_v76 main_c_29
  let main_v78 : IVec S_ 1 := andi main_v73 main_v77
  let main_v79 : FVec F S4 .f32 := Host.absf main_arg17
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : IVec S1x3200000 32 := (extractStridedSlice S1x3200000 ![1, 0] · slices_S2x3200000_S1x3200000_1_0) main_arg1
  let main_v85 : IVec S3200000 32 := shapeCast S3200000 main_v84 shapeCasts_S1x3200000_S3200000
  fn_part5 (F := F) main_arg1 main_v83 main_v85

def fn_part3 {F : FTy → Type} [FloatOps F] (main_arg1 : IVec S2x3200000 32) (main_arg12 : FVec F S32x1 .f32) (main_arg13 : FVec F S1 .f32) (main_arg14 : FVec F S64x32 .f32) (main_arg15 : FVec F S32 .f32) (main_arg16 : FVec F S32x4 .f32) (main_arg17 : FVec F S4 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg1 main_arg15 main_arg16 main_arg17 main_v63 main_v67

def fn_part2 {F : FTy → Type} [FloatOps F] (main_arg1 : IVec S2x3200000 32) (main_arg8 : FVec F S64x64 .f32) (main_arg9 : FVec F S64 .f32) (main_arg10 : FVec F S64x32 .f32) (main_arg11 : FVec F S32 .f32) (main_arg12 : FVec F S32x1 .f32) (main_arg13 : FVec F S1 .f32) (main_arg14 : FVec F S64x32 .f32) (main_arg15 : FVec F S32 .f32) (main_arg16 : FVec F S32x4 .f32) (main_arg17 : FVec F S4 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg1 main_arg12 main_arg13 main_arg14 main_arg15 main_arg16 main_arg17 main_v48 main_v49 main_v50

def fn_part1 {F : FTy → Type} [FloatOps F] (main_arg1 : IVec S2x3200000 32) (main_arg5 : FVec F S64 .f32) (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x1 .f32) (main_arg13 : FVec F S1 .f32) (main_arg14 : FVec F S64x32 .f32) (main_arg15 : FVec F S32 .f32) (main_arg16 : FVec F S32x4 .f32) (main_arg17 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S100000x6 .f32) (main_arg1 : IVec S2x3200000 32) (main_arg2 : FVec F S6x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S32x1 .f32) (main_arg13 : FVec F S1 .f32) (main_arg14 : FVec F S64x32 .f32) (main_arg15 : FVec F S32 .f32) (main_arg16 : FVec F S32x4 .f32) (main_arg17 : FVec F S4 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S100000x6 : Shape := ⟨2, ![100000, 6]⟩
abbrev S2x3200000 : Shape := ⟨2, ![2, 3200000]⟩
abbrev S6x64 : Shape := ⟨2, ![6, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S32x4 : Shape := ⟨2, ![32, 4]⟩
abbrev S4 : Shape := ⟨1, ![4]⟩
abbrev S100000x64 : Shape := ⟨2, ![100000, 64]⟩
abbrev S10000x6 : Shape := ⟨2, ![10000, 6]⟩
abbrev S10000x64 : Shape := ⟨2, ![10000, 64]⟩
abbrev S1x64 : Shape := ⟨2, ![1, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x1 : Shape := ⟨2, ![1, 1]⟩
abbrev S3200000x64 : Shape := ⟨2, ![3200000, 64]⟩
abbrev S100000 : Shape := ⟨1, ![100000]⟩
abbrev S100000x1 : Shape := ⟨2, ![100000, 1]⟩
abbrev S100000x4 : Shape := ⟨2, ![100000, 4]⟩
abbrev S10000x1 : Shape := ⟨2, ![10000, 1]⟩
abbrev S10000x4 : Shape := ⟨2, ![10000, 4]⟩
abbrev S10000x32 : Shape := ⟨2, ![10000, 32]⟩
abbrev S1x32 : Shape := ⟨2, ![1, 32]⟩
abbrev S1x4 : Shape := ⟨2, ![1, 4]⟩

abbrev nBuf : Space → Nat
  | .hbm => 66
  | .vmem => 26
  | .smem => 0
  | _ => 0

abbrev bufTy : (tb : Table) → Fin (tcTables nBuf tb) → BufTy
  | .hbm, ⟨0, _⟩ => ⟨S100000x6, .f32⟩
  | .hbm, ⟨1, _⟩ => ⟨S2x3200000, .i32⟩
  | .hbm, ⟨2, _⟩ => ⟨S6x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S64x32, .f32⟩
  | .hbm, ⟨15, _⟩ => ⟨S32, .f32⟩
  | .hbm, ⟨16, _⟩ => ⟨S32x4, .f32⟩
  | .hbm, ⟨17, _⟩ => ⟨S4, .f32⟩
  | .hbm, ⟨18, _⟩ => ⟨S100000x64, .f32⟩
  | .hbm, ⟨19, _⟩ => ⟨S1x3200000, .i32⟩
  | .hbm, ⟨20, _⟩ => ⟨S3200000, .i32⟩
  | .hbm, ⟨21, _⟩ => ⟨S1x3200000, .i32⟩
  | .hbm, ⟨22, _⟩ => ⟨S3200000, .i32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S1, .i32⟩
  | .hbm, ⟨32, _⟩ => ⟨S_, .i32⟩
  | .hbm, ⟨33, _⟩ => ⟨S3200000x1, .i32⟩
  | .hbm, ⟨34, _⟩ => ⟨S3200000x1, .i1⟩
  | .hbm, ⟨35, _⟩ => ⟨S1x1, .i32⟩
  | .hbm, ⟨36, _⟩ => ⟨S3200000x1, .i32⟩
  | .hbm, ⟨37, _⟩ => ⟨S3200000x1, .i1⟩
  | .hbm, ⟨38, _⟩ => ⟨S3200000x1, .i1⟩
  | .hbm, ⟨39, _⟩ => ⟨S_, .i1⟩
  | .hbm, ⟨40, _⟩ => ⟨S3200000, .i1⟩
  | .hbm, ⟨41, _⟩ => ⟨S3200000x64, .f32⟩
  | .hbm, ⟨42, _⟩ => ⟨S3200000x64, .i1⟩
  | .hbm, ⟨43, _⟩ => ⟨S_, .f32⟩
  | .hbm, ⟨44, _⟩ => ⟨S3200000x64, .f32⟩
  | .hbm, ⟨45, _⟩ => ⟨S3200000x64, .f32⟩
  | .hbm, ⟨46, _⟩ => ⟨S_, .f32⟩
  | .hbm, ⟨47, _⟩ => ⟨S100000x64, .f32⟩
  | .hbm, ⟨48, _⟩ => ⟨S3200000x1, .i32⟩
  | .hbm, ⟨49, _⟩ => ⟨S100000x64, .f32⟩
  | .hbm, ⟨50, _⟩ => ⟨S_, .f32⟩
  | .hbm, ⟨51, _⟩ => ⟨S3200000, .f32⟩
  | .hbm, ⟨52, _⟩ => ⟨S_, .f32⟩
  | .hbm, ⟨53, _⟩ => ⟨S100000, .f32⟩
  | .hbm, ⟨54, _⟩ => ⟨S3200000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000x1, .f32⟩
  | .hbm, ⟨64, _⟩ => ⟨S100000x4, .f32⟩
  | .hbm, ⟨65, _⟩ => ⟨S100000, .f32⟩
  | .local _ .vmem, ⟨0, _⟩ => ⟨S10000x6, .f32⟩
  | .local _ .vmem, ⟨1, _⟩ => ⟨S10000x6, .f32⟩
  | .local _ .vmem, ⟨2, _⟩ => ⟨S6x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S64x32, .f32⟩
  | .local _ .vmem, ⟨15, _⟩ => ⟨S32, .f32⟩
  | .local _ .vmem, ⟨16, _⟩ => ⟨S32x1, .f32⟩
  | .local _ .vmem, ⟨17, _⟩ => ⟨S1, .f32⟩
  | .local _ .vmem, ⟨18, _⟩ => ⟨S64x32, .f32⟩
  | .local _ .vmem, ⟨19, _⟩ => ⟨S32, .f32⟩
  | .local _ .vmem, ⟨20, _⟩ => ⟨S32x4, .f32⟩
  | .local _ .vmem, ⟨21, _⟩ => ⟨S4, .f32⟩
  | .local _ .vmem, ⟨22, _⟩ => ⟨S10000x1, .f32⟩
  | .local _ .vmem, ⟨23, _⟩ => ⟨S10000x1, .f32⟩
  | .local _ .vmem, ⟨24, _⟩ => ⟨S10000x4, .f32⟩
  | .local _ .vmem, ⟨25, _⟩ => ⟨S10000x4, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst_0 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst_2 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19_0 : Ref sig .tc := ⟨.hbm, 63, rfl⟩
abbrev main_v19_1 : Ref sig .tc := ⟨.hbm, 64, rfl⟩
abbrev main_v20 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg13_1 : Ref sig .tc := ⟨.vmem, 23, rfl⟩
abbrev cc1_stg14_0 : Ref sig .tc := ⟨.vmem, 24, rfl⟩
abbrev cc1_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem13_1 : DmaSem sig := 23
abbrev cc1_sem14_0 : DmaSem sig := 24
abbrev cc1_sem14_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S32x4 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S10000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S10000x4 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  inb_S10000x6_S10000x6_0_0 : ∀ a, (![0, 0] : Fin 2 → Nat) a + S10000x6.size a ≤ S10000x6.size a
  h_S10000x6 : 0 < S10000x6.numel
  inb_S6x64_S6x64_0_0 : ∀ a, (![0, 0] : Fin 2 → Nat) a + S6x64.size a ≤ S6x64.size a
  h_S6x64 : 0 < S6x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x64_0 : S3200000.BroadcastsInDim S3200000x64 (![0] : Fin 1 → Fin S3200000x64.rank)
  bcast_S_S3200000x64 : S_.BroadcastsInDim S3200000x64 (![] : Fin 0 → Fin S3200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S32x4_S32x4_0_0 : ∀ a, (![0, 0] : Fin 2 → Nat) a + S32x4.size a ≤ S32x4.size a
  h_S32x4 : 0 < S32x4.numel
  inb_S4_S4_0 : ∀ a, (![0] : Fin 1 → Nat) a + S4.size a ≤ S4.size a
  h_S4 : 0 < S4.numel
  shapeCasts_S4_S1x4 : S4.ShapeCasts S1x4
  broadcasts_S1x4_S10000x4 : S1x4.Broadcasts S10000x4
  inb_S10000x1_S10000x1_0_0 : ∀ a, (![0, 0] : Fin 2 → Nat) a + S10000x1.size a ≤ S10000x1.size a
  h_S10000x1 : 0 < S10000x1.numel
  inb_S10000x4_S10000x4_0_0 : ∀ a, (![0, 0] : Fin 2 → Nat) a + S10000x4.size a ≤ S10000x4.size a
  h_S10000x4 : 0 < S10000x4.numel
  shapeCasts_S100000x1_S100000 : S100000x1.ShapeCasts S100000
  dot_S10000x6_S6x64_S10000x64_1_0_0_1_n_n_wf : DotDims.WF S10000x6 S6x64 S10000x64 [1] [0] [0] [1] [] []
  dot_S10000x64_S64x64_S10000x64_1_0_0_1_n_n_wf : DotDims.WF S10000x64 S64x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  dot_S10000x32_S32x4_S10000x4_1_0_0_1_n_n_wf : DotDims.WF S10000x32 S32x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x32.size a ≤ S64x32.size a
  hwx1_9 : ∀ i : grid1.Coords, EltTy.bits .f32 = 32 ∨ (Rect.block (s := S64x32) S64x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S32.size a ≤ S32.size a
  hwx1_10 : ∀ i : grid1.Coords, EltTy.bits .f32 = 32 ∨ (Rect.block (s := S32) S32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S32x4.size a ≤ S32x4.size a
  hwx1_11 : ∀ i : grid1.Coords, EltTy.bits .f32 = 32 ∨ (Rect.block (s := S32x4) S32x4.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S4.size a ≤ S4.size a
  hwx1_12 : ∀ i : grid1.Coords, EltTy.bits .f32 = 32 ∨ (Rect.block (s := S4) S4.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S10000x1.size a ≤ S100000x1.size a
  hwx1_13 : ∀ i : grid1.Coords, EltTy.bits .f32 = 32 ∨ (Rect.block (s := S100000x1) S10000x1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S10000x4.size a ≤ S100000x4.size a
  hwx1_14 : ∀ i : grid1.Coords, EltTy.bits .f32 = 32 ∨ (Rect.block (s := S100000x4) S10000x4.size (cc1_transform_14 i) (hinb1_14 i)).WholeWords (EltTy.packing .f32)

variable [Facts₀]

def dot_S10000x6_S6x64_S10000x64_1_0_0_1_n_n : DotDims S10000x6 S6x64 S10000x64 where
  lhsContracting := [1]
  rhsContracting := [0]
  lhsNonContracting := [0]
  rhsNonContracting := [1]
  lhsBatch := []
  rhsBatch := []
  wf := dot_S10000x6_S6x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def dot_S10000x32_S32x4_S10000x4_1_0_0_1_n_n : DotDims S10000x32 S32x4 S10000x4 where
  lhsContracting := [1]
  rhsContracting := [0]
  lhsNonContracting := [0]
  rhsNonContracting := [1]
  lhsBatch := []
  rhsBatch := []
  wf := dot_S10000x32_S32x4_S10000x4_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S64x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg15) S32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S32x4.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg17) S4.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v19_0) S10000x1.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v19_1) S10000x4.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S6x64 : Shape := ⟨2, ![6, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S32x4 : Shape := ⟨2, ![32, 4]⟩
abbrev S4 : Shape := ⟨1, ![4]⟩
abbrev S100000x64 : Shape := ⟨2, ![100000, 64]⟩
abbrev S1x64 : Shape := ⟨2, ![1, 64]⟩
abbrev S_ : Shape := ⟨0, ![]⟩
abbrev S1x3200000 : Shape := ⟨2, ![1, 3200000]⟩
abbrev S3200000 : Shape := ⟨1, ![3200000]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1x1 : Shape := ⟨2, ![1, 1]⟩
abbrev S100000x4 : Shape := ⟨2, ![100000, 4]⟩
abbrev S1x4 : Shape := ⟨2, ![1, 4]⟩

abbrev nBuf : Space → Nat
  | .hbm => 96
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2x3200000, .i32⟩
  | .hbm, ⟨2, _⟩ => ⟨S6x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S64x32, .f32⟩
  | .hbm, ⟨15, _⟩ => ⟨S32, .f32⟩
  | .hbm, ⟨16, _⟩ => ⟨S32x4, .f32⟩
  | .hbm, ⟨17, _⟩ => ⟨S4, .f32⟩
  | .hbm, ⟨18, _⟩ => ⟨S100000x64, .f32⟩
  | .hbm, ⟨19, _⟩ => ⟨S1x64, .f32⟩
  | .hbm, ⟨20, _⟩ => ⟨S100000x64, .f32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S1x3200000, .i32⟩
  | .hbm, ⟨30, _⟩ => ⟨S3200000, .i32⟩
  | .hbm, ⟨31, _⟩ => ⟨S1x3200000, .i32⟩
  | .hbm, ⟨32, _⟩ => ⟨S3200000, .i32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x64, .f32⟩
  | .hbm, ⟨42, _⟩ => ⟨S_, .f32⟩
  | .hbm, ⟨43, _⟩ => ⟨S100000x64, .f32⟩
  | .hbm, ⟨44, _⟩ => ⟨S3200000x1, .i32⟩
  | .hbm, ⟨45, _⟩ => ⟨S100000x64, .f32⟩
  | .hbm, ⟨46, _⟩ => ⟨S_, .f32⟩
  | .hbm, ⟨47, _⟩ => ⟨S3200000, .f32⟩
  | .hbm, ⟨48, _⟩ => ⟨S_, .f32⟩
  | .hbm, ⟨49, _⟩ => ⟨S100000, .f32⟩
  | .hbm, ⟨50, _⟩ => ⟨S3200000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S100000x32, .f32⟩
  | .hbm, ⟨77, _⟩ => ⟨S_, .f32⟩
  | .hbm, ⟨78, _⟩ => ⟨S100000x32, .f32⟩
  | .hbm, ⟨79, _⟩ => ⟨S100000x32, .f32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | .hbm, ⟨84, _⟩ => ⟨S100000, .f32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .hbm, ⟨89, _⟩ => ⟨S_, .f32⟩
  | .hbm, ⟨90, _⟩ => ⟨S100000x32, .f32⟩
  | .hbm, ⟨91, _⟩ => ⟨S100000x32, .f32⟩
  | .hbm, ⟨92, _⟩ => ⟨S100000x4, .f32⟩
  | .hbm, ⟨93, _⟩ => ⟨S1x4, .f32⟩
  | .hbm, ⟨94, _⟩ => ⟨S100000x4, .f32⟩
  | .hbm, ⟨95, _⟩ => ⟨S100000x4, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_cst : Ref sig .tc := ⟨.hbm, 63, rfl⟩
abbrev main_call1_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call2_cst : Ref sig .tc := ⟨.hbm, 70, rfl⟩
abbrev main_call2_v0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call3_cst : Ref sig .tc := ⟨.hbm, 77, rfl⟩
abbrev main_call3_v0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call4_cst : Ref sig .tc := ⟨.hbm, 89, rfl⟩
abbrev main_call4_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  dot_S100000x6_S6x64_S100000x64_1_0_0_1_n_n_wf : DotDims.WF S100000x6 S6x64 S100000x64 [1] [0] [0] [1] [] []
  dot_S100000x64_S64x64_S100000x64_1_0_0_1_n_n_wf : DotDims.WF S100000x64 S64x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []
  dot_S100000x32_S32x4_S100000x4_1_0_0_1_n_n_wf : DotDims.WF S100000x32 S32x4 S100000x4 [1] [0] [0] [1] [] []

variable [Facts₀]

def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def dot_S100000x32_S32x4_S100000x4_1_0_0_1_n_n : DotDims S100000x32 S32x4 S100000x4 where
  lhsContracting := [1]
  rhsContracting := [0]
  lhsNonContracting := [0]
  rhsNonContracting := [1]
  lhsBatch := []
  rhsBatch := []
  wf := dot_S100000x32_S32x4_S100000x4_1_0_0_1_n_n_wf

class Facts : Prop extends Facts₀ where

variable [Facts]
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Layer.lean ====
/-
  Dense layers, entry by entry.

  An affine layer takes a matrix x (M rows, K columns), a weight matrix W (K by N) and a bias b (N entries) to the
  matrix whose entry (a, c) is the sum over k of x(a, k) · W(k, c), plus b(c). Entry (a, c) depends on x only through
  its row a: a layer of selected rows is the selected rows of the layer. The positive part is taken entry by entry, so
  it commutes with row selection too. A kernel writes the layer as a matrix product accumulated into zeros plus the bias
  cast to one row and broadcast down the rows; a host program writes it as a general product plus the bias broadcast
  along the second axis twice. Both are the layer; both spellings of the positive part are the positive part. Only
  commutativity-free rewriting is used: no law of the extended reals beyond 0 + x = x inside the library's product
  lemmas, so nothing here needs the entries to be finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«411923_j55843164782682_1_alg».proof.Proof.LibPlainDot

noncomputable section

namespace Cert.Layer

open Idealize.ShloMosaic Idealize.ShloMosaic.ValueIdx

variable {M K N : Nat}

/-- The affine layer: entry (a, c) is the sum over k of x(a, k) · W(k, c), plus b(c). -/
def lin (x : FVec Ideal ⟨2, ![M, K]⟩ .f32) (W : FVec Ideal ⟨2, ![K, N]⟩ .f32) (b : FVec Ideal ⟨1, ![N]⟩ .f32) :
    FVec Ideal ⟨2, ![M, N]⟩ .f32 :=
  fun i => (∑ k : Fin K, x (ix2 (i 0 : Fin M) k) * W (ix2 k (i 1 : Fin N))) + b (ix1 (i 1 : Fin N))

/-- The product alone (a layer with no bias). -/
def mm (x : FVec Ideal ⟨2, ![M, K]⟩ .f32) (W : FVec Ideal ⟨2, ![K, N]⟩ .f32) : FVec Ideal ⟨2, ![M, N]⟩ .f32 :=
  fun i => ∑ k : Fin K, x (ix2 (i 0 : Fin M) k) * W (ix2 k (i 1 : Fin N))

/-- The positive part, entry by entry: the larger of the entry and the value of the zero word. -/
def relu {s : Shape} (v : FVec Ideal s .f32) : FVec Ideal s .f32 :=
  fun i => max (v i) (Ideal.ofBits .f32 0x00000000#32)

/-- The rows a map f selects: row p of the result is row f(p) of x. -/
def rows {M' : Nat} (f : Fin M' → Fin M) (x : FVec Ideal ⟨2, ![M, K]⟩ .f32) : FVec Ideal ⟨2, ![M', K]⟩ .f32 :=
  fun y => x (ix2 (f (y 0 : Fin M')) (y 1 : Fin K))

/-- A layer of selected rows is the selected rows of the layer. -/
theorem lin_rows {M' : Nat} (f : Fin M' → Fin M) (x : FVec Ideal ⟨2, ![M, K]⟩ .f32) (W : FVec Ideal ⟨2, ![K, N]⟩ .f32)
    (b : FVec Ideal ⟨1, ![N]⟩ .f32) : lin (rows f x) W b = rows f (lin x W b) := rfl

theorem mm_rows {M' : Nat} (f : Fin M' → Fin M) (x : FVec Ideal ⟨2, ![M, K]⟩ .f32) (W : FVec Ideal ⟨2, ![K, N]⟩ .f32) :
    mm (rows f x) W = rows f (mm x W) := rfl

/-- The positive part of selected rows is the selected rows of the positive part. -/
theorem relu_rows {M' : Nat} (f : Fin M' → Fin M) (v : FVec Ideal ⟨2, ![M, K]⟩ .f32) :
    relu (rows f v) = rows f (relu v) := rfl

/-- A layer is its product plus the bias at the column. -/
theorem lin_eq_mm_add (x : FVec Ideal ⟨2, ![M, K]⟩ .f32) (W : FVec Ideal ⟨2, ![K, N]⟩ .f32) (b : FVec Ideal ⟨1, ![N]⟩ .f32) :
    lin x W b = fun i => mm x W i + b (ix1 (i 1 : Fin N)) := rfl

section Spellings

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
include hlc hrc hln hrn hlb hrb

/-- The kernel's product into a zero accumulator is the product. -/
theorem kernel_mm (x : FVec Ideal ⟨2, ![M, K]⟩ .f32) (W : FVec Ideal ⟨2, ![K, N]⟩ .f32) :
    matmul d none x W (constant ⟨2, ![M, N]⟩ .f32 0x00000000#32) = mm x W := by
  funext i
  obtain ⟨a, c, rfl⟩ : ∃ (a : Fin M) (c : Fin N), i = ix2 a c := ⟨i 0, i 1, eq_ix2 i⟩
  exact LibPlainDot.matmul_zero_apply d hlc hrc hln hrn hlb hrb none x W a c

/-- The bias cast to one row and broadcast down the rows reads the bias at the column. -/
theorem kernel_bias (h1 : (⟨1, ![N]⟩ : Shape).ShapeCasts ⟨2, ![1, N]⟩)
    (hb : (⟨2, ![1, N]⟩ : Shape).Broadcasts ⟨2, ![M, N]⟩) (b : FVec Ideal ⟨1, ![N]⟩ .f32) (i : (⟨2, ![M, N]⟩ : Shape).Idx) :
    broadcastTo ⟨2, ![M, N]⟩ (shapeCast ⟨2, ![1, N]⟩ b h1) hb i = b (ix1 (i 1 : Fin N)) := by
  obtain ⟨a, c, rfl⟩ : ∃ (a : Fin M) (c : Fin N), i = ix2 a c := ⟨i 0, i 1, eq_ix2 i⟩
  rw [broadcastTo_1b_ab_apply, shapeCast_a_1a_apply]
  rfl

/-- The kernel's layer — product into zeros, plus the bias as one row broadcast down — is the layer. -/
theorem kernel_lin (h1 : (⟨1, ![N]⟩ : Shape).ShapeCasts ⟨2, ![1, N]⟩)
    (hb : (⟨2, ![1, N]⟩ : Shape).Broadcasts ⟨2, ![M, N]⟩)
    (x : FVec Ideal ⟨2, ![M, K]⟩ .f32) (W : FVec Ideal ⟨2, ![K, N]⟩ .f32) (b : FVec Ideal ⟨1, ![N]⟩ .f32) :
    addf (matmul d none x W (constant ⟨2, ![M, N]⟩ .f32 0x00000000#32))
      (broadcastTo ⟨2, ![M, N]⟩ (shapeCast ⟨2, ![1, N]⟩ b h1) hb) = lin x W b := by
  rw [kernel_mm d hlc hrc hln hrn hlb hrb x W]
  funext i
  show mm x W i + broadcastTo ⟨2, ![M, N]⟩ (shapeCast ⟨2, ![1, N]⟩ b h1) hb i = _
  rw [kernel_bias d hlc hrc hln hrn hlb hrb h1 hb b i]
  rfl

/-- The host's product is the product. -/
theorem host_mm (x : FVec Ideal ⟨2, ![M, K]⟩ .f32) (W : FVec Ideal ⟨2, ![K, N]⟩ .f32) :
    Host.dotGeneral d none x W = mm x W := by
  funext i
  obtain ⟨a, c, rfl⟩ : ∃ (a : Fin M) (c : Fin N), i = ix2 a c := ⟨i 0, i 1, eq_ix2 i⟩
  exact LibPlainDot.dotGeneral_apply d hlc hrc hln hrn hlb hrb none _ x W a c

/-- The host's layer — general product, plus the bias broadcast to one row and then down the rows — is the layer. -/
theorem host_lin (hb1 : (⟨1, ![N]⟩ : Shape).BroadcastsInDim ⟨2, ![1, N]⟩ ![1])
    (hb2 : (⟨2, ![1, N]⟩ : Shape).BroadcastsInDim ⟨2, ![M, N]⟩ ![0, 1])
    (x : FVec Ideal ⟨2, ![M, K]⟩ .f32) (W : FVec Ideal ⟨2, ![K, N]⟩ .f32) (b : FVec Ideal ⟨1, ![N]⟩ .f32) :
    addf (Host.dotGeneral d none x W)
      (broadcastInDim ⟨2, ![M, N]⟩ ![0, 1] hb2 (broadcastInDim ⟨2, ![1, N]⟩ ![1] hb1 b)) = lin x W b := by
  rw [host_mm d hlc hrc hln hrn hlb hrb x W]
  funext i
  obtain ⟨a, c, rfl⟩ : ∃ (a : Fin M) (c : Fin N), i = ix2 a c := ⟨i 0, i 1, eq_ix2 i⟩
  show mm x W (ix2 a c) + broadcastInDim ⟨2, ![M, N]⟩ ![0, 1] hb2 (broadcastInDim ⟨2, ![1, N]⟩ ![1] hb1 b) (ix2 a c) = _
  rw [broadcastInDim_oneRow_apply hb2 _ a c,
    broadcastInDim_apply ![1] hb1 b (ix2 (0 : Fin 1) c) (ix1 c) (by
      intro ax
      match ax with
      | ⟨0, _⟩ =>
        show c.val = if N = 1 then 0 else c.val
        split
        · have := c.isLt; omega
        · rfl)]
  rfl

end Spellings

/-- The kernel's positive part — the maximum with a splat of the zero word — is the positive part. -/
theorem kernel_relu {s : Shape} (v : FVec Ideal s .f32) :
    maximumf v (broadcast s (Scalar.ofBits (F := Ideal) .f32 0x00000000#32)) = relu v := rfl

/-- The host's positive part — the maximum with the zero constant broadcast — is the positive part. -/
theorem host_relu {s : Shape} (hb : (⟨0, ![]⟩ : Shape).BroadcastsInDim s ![]) (v : FVec Ideal s .f32) :
    maximumf v (broadcastInDim s ![] hb (constant ⟨0, ![]⟩ .f32 0x00000000#32)) = relu v := by
  funext i
  show max (v i) (broadcastInDim s ![] hb (constant (F := Ideal) ⟨0, ![]⟩ .f32 0x00000000#32) i) = _
  rw [broadcastInDim_scalar_apply]
  rfl

end Cert.Layer

end
-- ==== Proof.Net.lean ====
/-
  The three dense stages of the network, each on any number M of rows.

  The encoder takes a row of 6 features through a layer to 64, the positive part, and a second layer to 64. After
  the aggregation the trunk takes a row of 64 through two layers, each followed by the positive part. The score head
  takes the trunk's row through a layer to 32, the positive part and a layer to one number; the type head through a
  layer to 32, the positive part and a layer to four. Every stage acts row by row: a stage of selected rows is the
  selected rows of the stage.
-/
import proofs.«411923_j55843164782682_1_alg».proof.Proof.Layer

noncomputable section

namespace Cert.Net

open Idealize.ShloMosaic Cert.Layer

variable {M : Nat}

/-- The encoder: layer, positive part, layer. -/
def enc (x : FVec Ideal ⟨2, ![M, 6]⟩ .f32) (W1 : FVec Ideal ⟨2, ![6, 64]⟩ .f32) (b1 : FVec Ideal ⟨1, ![64]⟩ .f32)
    (W2 : FVec Ideal ⟨2, ![64, 64]⟩ .f32) (b2 : FVec Ideal ⟨1, ![64]⟩ .f32) : FVec Ideal ⟨2, ![M, 64]⟩ .f32 :=
  lin (relu (lin x W1 b1)) W2 b2

/-- The trunk: two layers, each followed by the positive part. -/
def trunk (x : FVec Ideal ⟨2, ![M, 64]⟩ .f32) (Wf1 : FVec Ideal ⟨2, ![64, 64]⟩ .f32) (bf1 : FVec Ideal ⟨1, ![64]⟩ .f32)
    (Wf2 : FVec Ideal ⟨2, ![64, 64]⟩ .f32) (bf2 : FVec Ideal ⟨1, ![64]⟩ .f32) : FVec Ideal ⟨2, ![M, 64]⟩ .f32 :=
  relu (lin (relu (lin x Wf1 bf1)) Wf2 bf2)

/-- A head on the trunk's rows: layer to 32, positive part, layer to N. -/
def head {N : Nat} (y : FVec Ideal ⟨2, ![M, 64]⟩ .f32) (Wa : FVec Ideal ⟨2, ![64, 32]⟩ .f32) (ba : FVec Ideal ⟨1, ![32]⟩ .f32)
    (Wb : FVec Ideal ⟨2, ![32, N]⟩ .f32) (bb : FVec Ideal ⟨1, ![N]⟩ .f32) : FVec Ideal ⟨2, ![M, N]⟩ .f32 :=
  lin (relu (lin y Wa ba)) Wb bb

variable {M' : Nat} (f : Fin M' → Fin M)

theorem enc_rows (x : FVec Ideal ⟨2, ![M, 6]⟩ .f32) (W1 : FVec Ideal ⟨2, ![6, 64]⟩ .f32) (b1 : FVec Ideal ⟨1, ![64]⟩ .f32)
    (W2 : FVec Ideal ⟨2, ![64, 64]⟩ .f32) (b2 : FVec Ideal ⟨1, ![64]⟩ .f32) :
    enc (rows f x) W1 b1 W2 b2 = rows f (enc x W1 b1 W2 b2) := rfl

theorem trunk_rows (x : FVec Ideal ⟨2, ![M, 64]⟩ .f32) (Wf1 : FVec Ideal ⟨2, ![64, 64]⟩ .f32) (bf1 : FVec Ideal ⟨1, ![64]⟩ .f32)
    (Wf2 : FVec Ideal ⟨2, ![64, 64]⟩ .f32) (bf2 : FVec Ideal ⟨1, ![64]⟩ .f32) :
    trunk (rows f x) Wf1 bf1 Wf2 bf2 = rows f (trunk x Wf1 bf1 Wf2 bf2) := rfl

theorem head_rows {N : Nat} (y : FVec Ideal ⟨2, ![M, 64]⟩ .f32) (Wa : FVec Ideal ⟨2, ![64, 32]⟩ .f32) (ba : FVec Ideal ⟨1, ![32]⟩ .f32)
    (Wb : FVec Ideal ⟨2, ![32, N]⟩ .f32) (bb : FVec Ideal ⟨1, ![N]⟩ .f32) :
    head (rows f y) Wa ba Wb bb = rows f (head y Wa ba Wb bb) := rfl

end Cert.Net

end
-- ==== Proof.EncValue.lean ====
/-
  What the first pipelined region leaves in its output array: the encoder of the argument arrays.

  The region runs the encoder's body at ten grid points. At point t the body reads rows 10000·t … 10000·t + 9999 of
  the feature table (all six columns) and the two weight matrices and two biases whole, and writes the same rows of
  the output (all 64 columns). The body's result is the encoder of the rows it read, and the encoder acts row by
  row, so what point t writes back is rows 10000·t … of the encoder of the whole feature table. The ten row blocks
  cover all 100000 rows, so the output array ends holding the encoder of the whole table.
-/
import proofs.«411923_j55843164782682_1_alg».proof.Proof.Gen.KernelIdeal.Frame
import proofs.«411923_j55843164782682_1_alg».proof.Proof.Net
import Idealize.ShloMosaic.Lib.Pipeline.Value

set_option maxRecDepth 16384

noncomputable section

namespace Cert.KernelIdeal.Enc

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layer Cert.Net

/-- The start offsets of a whole-block access are all zero. -/
theorem hz2 : (![0, 0] : Fin 2 → Nat) = fun _ => 0 := funext fun a => by fin_cases a <;> rfl
theorem hz1 : (![0] : Fin 1 → Nat) = fun _ => 0 := funext fun a => by fin_cases a <;> rfl

/-- The body's one stored value is the encoder of the five blocks it loaded. -/
theorem pay_eq (v0 : Vec Ideal S10000x6 .f32) (v1 : Vec Ideal S6x64 .f32) (v3 : Vec Ideal S64 .f32)
    (v9 : Vec Ideal S64x64 .f32) (v11 : Vec Ideal S64 .f32) :
    k0_pay1 (F := Ideal) v0 v1 v3 v9 v11 = enc v0 v1 v3 v9 v11 := by
  unfold k0_pay1 enc
  dsimp only
  rw [kernel_lin (M := 10000) (K := 6) (N := 64) dot_S10000x6_S6x64_S10000x64_1_0_0_1_n_n rfl rfl rfl rfl rfl rfl,
    kernel_relu,
    kernel_lin (M := 10000) (K := 64) (N := 64) dot_S10000x64_S64x64_S10000x64_1_0_0_1_n_n rfl rfl rfl rfl rfl rfl]

/-- What the body leaves in the output window's buffer is the encoder of the input windows' blocks. -/
theorem out_eq (x0 : Vec Ideal S10000x6 .f32) (x1 : Vec Ideal S6x64 .f32) (x2 : Vec Ideal S64 .f32)
    (x3 : Vec Ideal S64x64 .f32) (x4 : Vec Ideal S64 .f32) :
    out0_5 (F := Ideal) x0 x1 x2 x3 x4 = enc x0 x1 x2 x3 x4 := by
  unfold out0_5
  rw [View.canon_unit_zero hz2]
  simp only [View.ld_unit_zero (S := S10000x6) hz2, View.ld_unit_zero (S := S6x64) hz2, View.ld_unit_zero (S := S64) hz1,
    View.ld_unit_zero (S := S64x64) hz2]
  exact pay_eq x0 x1 x2 x3 x4

/-- The printed index maps over the ten points: the row-blocked windows sit at block row t, column block 0; the
    weights and biases at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 ∧ t.val < 10 :=
  (by decide +kernel : ∀ t : Fin grid0.N, _)

/-- Row p of point t's block is row 10000·t + p of the table. -/
def rowOf (t : Fin cfg0.N) (p : Fin 10000) : Fin 100000 :=
  ⟨10000 * t.val + p.val, by have := (idx_facts t).2.2.2.2.2.2.2.2.2.2; have := p.isLt; omega⟩

variable (V : (c : Dev nD) → (b : Ref sig .tc) → Buf (Elt Ideal) ((c : Thread nD τ).loc b))

/-- The feature window's block at point t: the rows of the feature table from 10000·t on. -/
theorem blk_x (c : Dev nD) (t : Fin cfg0.N) :
    (iblk0 V c 0 t : Vec Ideal S10000x6 .f32) = rows (rowOf t) (V c main_arg0) := by
  obtain ⟨e0, e1, -⟩ := idx_facts t
  funext j
  show V c main_arg0 (((cfg0.win 0).blk t).view.emb j) = V c main_arg0 (ix2 (rowOf t (j 0)) (j 1))
  refine congrArg (V c main_arg0) (funext fun a => Fin.ext ?_)
  match a with
  | ⟨0, _⟩ => show win0_0.index t (0 : Fin 2) * 10000 + 1 * (j 0).val = 10000 * t.val + (j 0).val; omega
  | ⟨1, _⟩ => show win0_0.index t (1 : Fin 2) * 6 + 1 * (j 1).val = (j 1).val; omega

/-- The first weight matrix's window holds the whole matrix at every point. -/
theorem blk_W1 (c : Dev nD) (t : Fin cfg0.N) : (iblk0 V c 1 t : Vec Ideal S6x64 .f32) = V c main_arg2 := by
  obtain ⟨-, -, e0, e1, -⟩ := idx_facts t
  funext j
  show V c main_arg2 (((cfg0.win 1).blk t).view.emb j) = V c main_arg2 j
  refine congrArg (V c main_arg2) (funext fun a => Fin.ext ?_)
  match a with
  | ⟨0, _⟩ => show win0_1.index t (0 : Fin 2) * 6 + 1 * (j 0).val = (j 0).val; omega
  | ⟨1, _⟩ => show win0_1.index t (1 : Fin 2) * 64 + 1 * (j 1).val = (j 1).val; omega

/-- The first bias's window holds the whole bias. -/
theorem blk_b1 (c : Dev nD) (t : Fin cfg0.N) : (iblk0 V c 2 t : Vec Ideal S64 .f32) = V c main_arg3 := by
  obtain ⟨-, -, -, -, e0, -⟩ := idx_facts t
  funext j
  show V c main_arg3 (((cfg0.win 2).blk t).view.emb j) = V c main_arg3 j
  refine congrArg (V c main_arg3) (funext fun a => Fin.ext ?_)
  match a with
  | ⟨0, _⟩ => show win0_2.index t (0 : Fin 1) * 64 + 1 * (j 0).val = (j 0).val; omega

/-- The second weight matrix's window holds the whole matrix. -/
theorem blk_W2 (c : Dev nD) (t : Fin cfg0.N) : (iblk0 V c 3 t : Vec Ideal S64x64 .f32) = V c main_arg4 := by
  obtain ⟨-, -, -, -, -, e0, e1, -⟩ := idx_facts t
  funext j
  show V c main_arg4 (((cfg0.win 3).blk t).view.emb j) = V c main_arg4 j
  refine congrArg (V c main_arg4) (funext fun a => Fin.ext ?_)
  match a with
  | ⟨0, _⟩ => show win0_3.index t (0 : Fin 2) * 64 + 1 * (j 0).val = (j 0).val; omega
  | ⟨1, _⟩ => show win0_3.index t (1 : Fin 2) * 64 + 1 * (j 1).val = (j 1).val; omega

/-- The second bias's window holds the whole bias. -/
theorem blk_b2 (c : Dev nD) (t : Fin cfg0.N) : (iblk0 V c 4 t : Vec Ideal S64 .f32) = V c main_arg5 := by
  obtain ⟨-, -, -, -, -, -, -, e0, -⟩ := idx_facts t
  funext j
  show V c main_arg5 (((cfg0.win 4).blk t).view.emb j) = V c main_arg5 j
  refine congrArg (V c main_arg5) (funext fun a => Fin.ext ?_)
  match a with
  | ⟨0, _⟩ => show win0_4.index t (0 : Fin 1) * 64 + 1 * (j 0).val = (j 0).val; omega

/-- The output window's block at point t of any array: its rows from 10000·t on. -/
theorem read_out (G : FVec Ideal S100000x64 .f32) (t : Fin cfg0.N) :
    (((cfg0.win 5).blk t).view.read (Elt Ideal) G : Vec Ideal S10000x64 .f32) = rows (rowOf t) G := by
  obtain ⟨-, -, -, -, -, -, -, -, e0, e1, -⟩ := idx_facts t
  funext j
  show G (((cfg0.win 5).blk t).view.emb j) = G (ix2 (rowOf t (j 0)) (j 1))
  refine congrArg G (funext fun a => Fin.ext ?_)
  match a with
  | ⟨0, _⟩ => show win0_5.index t (0 : Fin 2) * 10000 + 1 * (j 0).val = 10000 * t.val + (j 0).val; omega
  | ⟨1, _⟩ => show win0_5.index t (1 : Fin 2) * 64 + 1 * (j 1).val = (j 1).val; omega

/-- What point t writes back is its block of the encoder of the whole arrays. -/
theorem flushed_eq (c : Dev nD) (t : Fin cfg0.N) :
    (dat0 V c).flushed 5 t = ((cfg0.win 5).blk t).view.read (Elt Ideal)
      (enc (V c main_arg0) (V c main_arg2) (V c main_arg3) (V c main_arg4) (V c main_arg5)) := by
  show (cfg0.win 5).cut (grid0.coords t) ((dat0 V c).after 5 t) = _
  rw [after0_5, blk_x V c t, blk_W1 V c t, blk_b1 V c t, blk_W2 V c t, blk_b2 V c t, out_eq, enc_rows, read_out]
  rfl

/-- An index of the output array is in point t's block iff its row is among the block's rows. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v0).slice (win0_5.rect t)).set ↔ _
  rw [View.set_slice_whole, Rect.mem_set_unit]
  exact Iff.rfl

/-- Every index of the output array lies in the block of the point its row divided by 10000 names. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, -, -, e0, e1, -⟩ := idx_facts t
  have ht : t.val = (i 0).val / 10000 := rfl
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The output array after the region: the encoder of the arrays the region found. -/
theorem final (c : Dev nD) :
    (dat0 V c).arrAt 5 cfg0.N = enc (V c main_arg0) (V c main_arg2) (V c main_arg3) (V c main_arg4) (V c main_arg5) :=
  (dat0 V c).arrAt_eq_of_cover 5 _ (fun t _ => flushed_eq V c t) cover

end Cert.KernelIdeal.Enc

end
-- ==== Proof.PostValue.lean ====
/-
  What the second pipelined region leaves in its two output arrays: the score head and the type head of the trunk
  of the aggregated table.

  The region runs its body at ten grid points. At point t the body reads rows 10000·t … 10000·t + 9999 of the
  aggregated table and the twelve weight matrices and biases whole, and writes the same rows of the score column
  and of the four type columns. The body's two results are the two heads over the trunk of the rows it read; trunk
  and heads act row by row, so what point t writes back is its rows of the heads over the trunk of the whole
  table. The ten row blocks cover all 100000 rows of each output.
-/
import proofs.«411923_j55843164782682_1_alg».proof.Proof.Gen.KernelIdeal.Frame
import proofs.«411923_j55843164782682_1_alg».proof.Proof.Net
import Idealize.ShloMosaic.Lib.Pipeline.Value

set_option maxRecDepth 16384

noncomputable section

namespace Cert.KernelIdeal.Post

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layer Cert.Net

/-- The start offsets of a whole-block access are all zero. -/
theorem hz2 : (![0, 0] : Fin 2 → Nat) = fun _ => 0 := funext fun a => by fin_cases a <;> rfl
theorem hz1 : (![0] : Fin 1 → Nat) = fun _ => 0 := funext fun a => by fin_cases a <;> rfl

/-- The value both heads read: the trunk of the block of rows (the body first casts the block to its own shape). -/
theorem pay_trunk (v0 : Vec Ideal S10000x64 .f32) (v2 : Vec Ideal S64x64 .f32) (v4 : Vec Ideal S64 .f32)
    (v10 : Vec Ideal S64x64 .f32) (v12 : Vec Ideal S64 .f32) :
    k1_pay2 (F := Ideal) v0 v2 v4 v10 v12 = trunk v0 v2 v4 v10 v12 := by
  unfold k1_pay2 trunk
  dsimp only
  rw [shapeCast_self,
    kernel_lin (M := 10000) (K := 64) (N := 64) dot_S10000x64_S64x64_S10000x64_1_0_0_1_n_n rfl rfl rfl rfl rfl rfl,
    kernel_relu,
    kernel_lin (M := 10000) (K := 64) (N := 64) dot_S10000x64_S64x64_S10000x64_1_0_0_1_n_n rfl rfl rfl rfl rfl rfl,
    kernel_relu]

/-- The score column's stored value is the score head over the trunk. -/
theorem pay_score (v0 : Vec Ideal S10000x64 .f32) (v2 : Vec Ideal S64x64 .f32) (v4 : Vec Ideal S64 .f32)
    (v10 : Vec Ideal S64x64 .f32) (v12 : Vec Ideal S64 .f32) (v18 : Vec Ideal S64x32 .f32) (v20 : Vec Ideal S32 .f32)
    (v26 : Vec Ideal S32x1 .f32) (v28 : Vec Ideal S1 .f32) :
    k1_pay3 (F := Ideal) v0 v2 v4 v10 v12 v18 v20 v26 v28 = head (trunk v0 v2 v4 v10 v12) v18 v20 v26 v28 := by
  unfold k1_pay3 head
  dsimp only
  rw [pay_trunk,
    kernel_lin (M := 10000) (K := 64) (N := 32) dot_S10000x64_S64x32_S10000x32_1_0_0_1_n_n rfl rfl rfl rfl rfl rfl,
    kernel_relu,
    kernel_lin (M := 10000) (K := 32) (N := 1) dot_S10000x32_S32x1_S10000x1_1_0_0_1_n_n rfl rfl rfl rfl rfl rfl]

/-- The type columns' stored value is the type head over the trunk. -/
theorem pay_type (v0 : Vec Ideal S10000x64 .f32) (v2 : Vec Ideal S64x64 .f32) (v4 : Vec Ideal S64 .f32)
    (v10 : Vec Ideal S64x64 .f32) (v12 : Vec Ideal S64 .f32) (v32 : Vec Ideal S64x32 .f32) (v34 : Vec Ideal S32 .f32)
    (v40 : Vec Ideal S32x4 .f32) (v42 : Vec Ideal S4 .f32) :
    k1_pay1 (F := Ideal) (k1_pay4 v0 v2 v4 v10 v12 v32) v34 v40 v42 = head (trunk v0 v2 v4 v10 v12) v32 v34 v40 v42 := by
  unfold k1_pay1 k1_pay4 head
  dsimp only
  rw [pay_trunk,
    kernel_lin (M := 10000) (K := 64) (N := 32) dot_S10000x64_S64x32_S10000x32_1_0_0_1_n_n rfl rfl rfl rfl rfl rfl,
    kernel_relu,
    kernel_lin (M := 10000) (K := 32) (N := 4) dot_S10000x32_S32x4_S10000x4_1_0_0_1_n_n rfl rfl rfl rfl rfl rfl]

/-- What the body leaves in the score window's buffer. -/
theorem out_13 (x0 : Vec Ideal S10000x64 .f32) (x1 : Vec Ideal S64x64 .f32) (x2 : Vec Ideal S64 .f32) (x3 : Vec Ideal S64x64 .f32) (x4 : Vec Ideal S64 .f32) (x5 : Vec Ideal S64x32 .f32) (x6 : Vec Ideal S32 .f32) (x7 : Vec Ideal S32x1 .f32) (x8 : Vec Ideal S1 .f32) (x9 : Vec Ideal S64x32 .f32) (x10 : Vec Ideal S32 .f32) (x11 : Vec Ideal S32x4 .f32) (x12 : Vec Ideal S4 .f32) :
    out1_13 (F := Ideal) x0 x1 x2 x3 x4 x5 x6 x7 x8 x9 x10 x11 x12 = head (trunk x0 x1 x2 x3 x4) x5 x6 x7 x8 := by
  unfold out1_13
  rw [View.canon_unit_zero hz2]
  simp only [View.ld_unit_zero (S := S10000x64) hz2, View.ld_unit_zero (S := S64x64) hz2, View.ld_unit_zero (S := S64) hz1, View.ld_unit_zero (S := S64x32) hz2, View.ld_unit_zero (S := S32) hz1, View.ld_unit_zero (S := S32x1) hz2, View.ld_unit_zero (S := S1) hz1, View.ld_unit_zero (S := S32x4) hz2, View.ld_unit_zero (S := S4) hz1]
  exact pay_score x0 x1 x2 x3 x4 x5 x6 x7 x8

/-- What the body leaves in the type window's buffer. -/
theorem out_14 (x0 : Vec Ideal S10000x64 .f32) (x1 : Vec Ideal S64x64 .f32) (x2 : Vec Ideal S64 .f32) (x3 : Vec Ideal S64x64 .f32) (x4 : Vec Ideal S64 .f32) (x5 : Vec Ideal S64x32 .f32) (x6 : Vec Ideal S32 .f32) (x7 : Vec Ideal S32x1 .f32) (x8 : Vec Ideal S1 .f32) (x9 : Vec Ideal S64x32 .f32) (x10 : Vec Ideal S32 .f32) (x11 : Vec Ideal S32x4 .f32) (x12 : Vec Ideal S4 .f32) :
    out1_14 (F := Ideal) x0 x1 x2 x3 x4 x5 x6 x7 x8 x9 x10 x11 x12 = head (trunk x0 x1 x2 x3 x4) x9 x10 x11 x12 := by
  unfold out1_14
  rw [View.canon_unit_zero hz2]
  simp only [View.ld_unit_zero (S := S10000x64) hz2, View.ld_unit_zero (S := S64x64) hz2, View.ld_unit_zero (S := S64) hz1, View.ld_unit_zero (S := S64x32) hz2, View.ld_unit_zero (S := S32) hz1, View.ld_unit_zero (S := S32x1) hz2, View.ld_unit_zero (S := S1) hz1, View.ld_unit_zero (S := S32x4) hz2, View.ld_unit_zero (S := S4) hz1]
  exact pay_type x0 x1 x2 x3 x4 x9 x10 x11 x12

/-- The row-blocked input window sits at block row t, column block 0, and there are ten points. -/
theorem idx_0 : ∀ t : Fin cfg1.N, win1_0.index t (0 : Fin 2) = t.val ∧ win1_0.index t (1 : Fin 2) = 0 ∧ t.val < 10 :=
  (by decide +kernel : ∀ t : Fin grid1.N, _)

/-- Row p of point t's block is row 10000·t + p of the table. -/
def rowOf (t : Fin cfg1.N) (p : Fin 10000) : Fin 100000 :=
  ⟨10000 * t.val + p.val, by have := (idx_0 t).2.2; have := p.isLt; omega⟩

variable (V : (c : Dev nD) → (b : Ref sig .tc) → Buf (Elt Ideal) ((c : Thread nD τ).loc b))

/-- The table window's block at point t: the rows of the aggregated table from 10000·t on. -/
theorem blk_0 (c : Dev nD) (t : Fin cfg1.N) :
    (iblk1 V c 0 t : Vec Ideal S10000x64 .f32) = rows (rowOf t) (V c main_v18) := by
  obtain ⟨e0, e1, -⟩ := idx_0 t
  funext j
  show V c main_v18 (((cfg1.win 0).blk t).view.emb j) = V c main_v18 (ix2 (rowOf t (j 0)) (j 1))
  refine congrArg (V c main_v18) (funext fun a => Fin.ext ?_)
  match a with
  | ⟨0, _⟩ => show win1_0.index t (0 : Fin 2) * 10000 + 1 * (j 0).val = 10000 * t.val + (j 0).val; omega
  | ⟨1, _⟩ => show win1_0.index t (1 : Fin 2) * 64 + 1 * (j 1).val = (j 1).val; omega

theorem idx_1 : ∀ t : Fin cfg1.N, win1_1.index t (0 : Fin 2) = 0 ∧ win1_1.index t (1 : Fin 2) = 0 :=
  (by decide +kernel : ∀ t : Fin grid1.N, _)
/-- Window 1 holds its whole array at every point. -/
theorem blk_1 (c : Dev nD) (t : Fin cfg1.N) : (iblk1 V c 1 t : Vec Ideal S64x64 .f32) = V c main_arg6 := by
  obtain ⟨e0, e1⟩ := idx_1 t
  funext j
  show V c main_arg6 (((cfg1.win 1).blk t).view.emb j) = V c main_arg6 j
  refine congrArg (V c main_arg6) (funext fun a => Fin.ext ?_)
  match a with
  | ⟨0, _⟩ => show win1_1.index t (0 : Fin 2) * 64 + 1 * (j 0).val = (j 0).val; omega
  | ⟨1, _⟩ => show win1_1.index t (1 : Fin 2) * 64 + 1 * (j 1).val = (j 1).val; omega

theorem idx_2 : ∀ t : Fin cfg1.N, win1_2.index t (0 : Fin 1) = 0 :=
  (by decide +kernel : ∀ t : Fin grid1.N, _)
/-- Window 2 holds its whole array at every point. -/
theorem blk_2 (c : Dev nD) (t : Fin cfg1.N) : (iblk1 V c 2 t : Vec Ideal S64 .f32) = V c main_arg7 := by
  have e0 := idx_2 t
  funext j
  show V c main_arg7 (((cfg1.win 2).blk t).view.emb j) = V c main_arg7 j
  refine congrArg (V c main_arg7) (funext fun a => Fin.ext ?_)
  match a with
  | ⟨0, _⟩ => show win1_2.index t (0 : Fin 1) * 64 + 1 * (j 0).val = (j 0).val; omega

theorem idx_3 : ∀ t : Fin cfg1.N, win1_3.index t (0 : Fin 2) = 0 ∧ win1_3.index t (1 : Fin 2) = 0 :=
  (by decide +kernel : ∀ t : Fin grid1.N, _)
/-- Window 3 holds its whole array at every point. -/
theorem blk_3 (c : Dev nD) (t : Fin cfg1.N) : (iblk1 V c 3 t : Vec Ideal S64x64 .f32) = V c main_arg8 := by
  obtain ⟨e0, e1⟩ := idx_3 t
  funext j
  show V c main_arg8 (((cfg1.win 3).blk t).view.emb j) = V c main_arg8 j
  refine congrArg (V c main_arg8) (funext fun a => Fin.ext ?_)
  match a with
  | ⟨0, _⟩ => show win1_3.index t (0 : Fin 2) * 64 + 1 * (j 0).val = (j 0).val; omega
  | ⟨1, _⟩ => show win1_3.index t (1 : Fin 2) * 64 + 1 * (j 1).val = (j 1).val; omega

theorem idx_4 : ∀ t : Fin cfg1.N, win1_4.index t (0 : Fin 1) = 0 :=
  (by decide +kernel : ∀ t : Fin grid1.N, _)
/-- Window 4 holds its whole array at every point. -/
theorem blk_4 (c : Dev nD) (t : Fin cfg1.N) : (iblk1 V c 4 t : Vec Ideal S64 .f32) = V c main_arg9 := by
  have e0 := idx_4 t
  funext j
  show V c main_arg9 (((cfg1.win 4).blk t).view.emb j) = V c main_arg9 j
  refine congrArg (V c main_arg9) (funext fun a => Fin.ext ?_)
  match a with
  | ⟨0, _⟩ => show win1_4.index t (0 : Fin 1) * 64 + 1 * (j 0).val = (j 0).val; omega

theorem idx_5 : ∀ t : Fin cfg1.N, win1_5.index t (0 : Fin 2) = 0 ∧ win1_5.index t (1 : Fin 2) = 0 :=
  (by decide +kernel : ∀ t : Fin grid1.N, _)
/-- Window 5 holds its whole array at every point. -/
theorem blk_5 (c : Dev nD) (t : Fin cfg1.N) : (iblk1 V c 5 t : Vec Ideal S64x32 .f32) = V c main_arg10 := by
  obtain ⟨e0, e1⟩ := idx_5 t
  funext j
  show V c main_arg10 (((cfg1.win 5).blk t).view.emb j) = V c main_arg10 j
  refine congrArg (V c main_arg10) (funext fun a => Fin.ext ?_)
  match a with
  | ⟨0, _⟩ => show win1_5.index t (0 : Fin 2) * 64 + 1 * (j 0).val = (j 0).val; omega
  | ⟨1, _⟩ => show win1_5.index t (1 : Fin 2) * 32 + 1 * (j 1).val = (j 1).val; omega

theorem idx_6 : ∀ t : Fin cfg1.N, win1_6.index t (0 : Fin 1) = 0 :=
  (by decide +kernel : ∀ t : Fin grid1.N, _)
/-- Window 6 holds its whole array at every point. -/
theorem blk_6 (c : Dev nD) (t : Fin cfg1.N) : (iblk1 V c 6 t : Vec Ideal S32 .f32) = V c main_arg11 := by
  have e0 := idx_6 t
  funext j
  show V c main_arg11 (((cfg1.win 6).blk t).view.emb j) = V c main_arg11 j
  refine congrArg (V c main_arg11) (funext fun a => Fin.ext ?_)
  match a with
  | ⟨0, _⟩ => show win1_6.index t (0 : Fin 1) * 32 + 1 * (j 0).val = (j 0).val; omega

theorem idx_7 : ∀ t : Fin cfg1.N, win1_7.index t (0 : Fin 2) = 0 ∧ win1_7.index t (1 : Fin 2) = 0 :=
  (by decide +kernel : ∀ t : Fin grid1.N, _)
/-- Window 7 holds its whole array at every point. -/
theorem blk_7 (c : Dev nD) (t : Fin cfg1.N) : (iblk1 V c 7 t : Vec Ideal S32x1 .f32) = V c main_arg12 := by
  obtain ⟨e0, e1⟩ := idx_7 t
  funext j
  show V c main_arg12 (((cfg1.win 7).blk t).view.emb j) = V c main_arg12 j
  refine congrArg (V c main_arg12) (funext fun a => Fin.ext ?_)
  match a with
  | ⟨0, _⟩ => show win1_7.index t (0 : Fin 2) * 32 + 1 * (j 0).val = (j 0).val; omega
  | ⟨1, _⟩ => show win1_7.index t (1 : Fin 2) * 1 + 1 * (j 1).val = (j 1).val; omega

theorem idx_8 : ∀ t : Fin cfg1.N, win1_8.index t (0 : Fin 1) = 0 :=
  (by decide +kernel : ∀ t : Fin grid1.N, _)
/-- Window 8 holds its whole array at every point. -/
theorem blk_8 (c : Dev nD) (t : Fin cfg1.N) : (iblk1 V c 8 t : Vec Ideal S1 .f32) = V c main_arg13 := by
  have e0 := idx_8 t
  funext j
  show V c main_arg13 (((cfg1.win 8).blk t).view.emb j) = V c main_arg13 j
  refine congrArg (V c main_arg13) (funext fun a => Fin.ext ?_)
  match a with
  | ⟨0, _⟩ => show win1_8.index t (0 : Fin 1) * 1 + 1 * (j 0).val = (j 0).val; omega

theorem idx_9 : ∀ t : Fin cfg1.N, win1_9.index t (0 : Fin 2) = 0 ∧ win1_9.index t (1 : Fin 2) = 0 :=
  (by decide +kernel : ∀ t : Fin grid1.N, _)
/-- Window 9 holds its whole array at every point. -/
theorem blk_9 (c : Dev nD) (t : Fin cfg1.N) : (iblk1 V c 9 t : Vec Ideal S64x32 .f32) = V c main_arg14 := by
  obtain ⟨e0, e1⟩ := idx_9 t
  funext j
  show V c main_arg14 (((cfg1.win 9).blk t).view.emb j) = V c main_arg14 j
  refine congrArg (V c main_arg14) (funext fun a => Fin.ext ?_)
  match a with
  | ⟨0, _⟩ => show win1_9.index t (0 : Fin 2) * 64 + 1 * (j 0).val = (j 0).val; omega
  | ⟨1, _⟩ => show win1_9.index t (1 : Fin 2) * 32 + 1 * (j 1).val = (j 1).val; omega

theorem idx_10 : ∀ t : Fin cfg1.N, win1_10.index t (0 : Fin 1) = 0 :=
  (by decide +kernel : ∀ t : Fin grid1.N, _)
/-- Window 10 holds its whole array at every point. -/
theorem blk_10 (c : Dev nD) (t : Fin cfg1.N) : (iblk1 V c 10 t : Vec Ideal S32 .f32) = V c main_arg15 := by
  have e0 := idx_10 t
  funext j
  show V c main_arg15 (((cfg1.win 10).blk t).view.emb j) = V c main_arg15 j
  refine congrArg (V c main_arg15) (funext fun a => Fin.ext ?_)
  match a with
  | ⟨0, _⟩ => show win1_10.index t (0 : Fin 1) * 32 + 1 * (j 0).val = (j 0).val; omega

theorem idx_11 : ∀ t : Fin cfg1.N, win1_11.index t (0 : Fin 2) = 0 ∧ win1_11.index t (1 : Fin 2) = 0 :=
  (by decide +kernel : ∀ t : Fin grid1.N, _)
/-- Window 11 holds its whole array at every point. -/
theorem blk_11 (c : Dev nD) (t : Fin cfg1.N) : (iblk1 V c 11 t : Vec Ideal S32x4 .f32) = V c main_arg16 := by
  obtain ⟨e0, e1⟩ := idx_11 t
  funext j
  show V c main_arg16 (((cfg1.win 11).blk t).view.emb j) = V c main_arg16 j
  refine congrArg (V c main_arg16) (funext fun a => Fin.ext ?_)
  match a with
  | ⟨0, _⟩ => show win1_11.index t (0 : Fin 2) * 32 + 1 * (j 0).val = (j 0).val; omega
  | ⟨1, _⟩ => show win1_11.index t (1 : Fin 2) * 4 + 1 * (j 1).val = (j 1).val; omega

theorem idx_12 : ∀ t : Fin cfg1.N, win1_12.index t (0 : Fin 1) = 0 :=
  (by decide +kernel : ∀ t : Fin grid1.N, _)
/-- Window 12 holds its whole array at every point. -/
theorem blk_12 (c : Dev nD) (t : Fin cfg1.N) : (iblk1 V c 12 t : Vec Ideal S4 .f32) = V c main_arg17 := by
  have e0 := idx_12 t
  funext j
  show V c main_arg17 (((cfg1.win 12).blk t).view.emb j) = V c main_arg17 j
  refine congrArg (V c main_arg17) (funext fun a => Fin.ext ?_)
  match a with
  | ⟨0, _⟩ => show win1_12.index t (0 : Fin 1) * 4 + 1 * (j 0).val = (j 0).val; omega

/-! ## The score column -/

theorem idx_13 : ∀ t : Fin cfg1.N, win1_13.index t (0 : Fin 2) = t.val ∧ win1_13.index t (1 : Fin 2) = 0 :=
  (by decide +kernel : ∀ t : Fin grid1.N, _)

/-- Output window 13's block at point t of any array: its rows from 10000·t on. -/
theorem read_13 (G : FVec Ideal S100000x1 .f32) (t : Fin cfg1.N) :
    (((cfg1.win 13).blk t).view.read (Elt Ideal) G : Vec Ideal S10000x1 .f32) = rows (rowOf t) G := by
  obtain ⟨e0, e1⟩ := idx_13 t
  funext j
  show G (((cfg1.win 13).blk t).view.emb j) = G (ix2 (rowOf t (j 0)) (j 1))
  refine congrArg G (funext fun a => Fin.ext ?_)
  match a with
  | ⟨0, _⟩ => show win1_13.index t (0 : Fin 2) * 10000 + 1 * (j 0).val = 10000 * t.val + (j 0).val; omega
  | ⟨1, _⟩ => show win1_13.index t (1 : Fin 2) * 1 + 1 * (j 1).val = (j 1).val; omega

/-- What point t writes back through window 13 is its block of the score head over the trunk of the whole arrays. -/
theorem flushed_13 (c : Dev nD) (t : Fin cfg1.N) :
    (dat1 V c).flushed 13 t = ((cfg1.win 13).blk t).view.read (Elt Ideal)
      (head (trunk (V c main_v18) (V c main_arg6) (V c main_arg7) (V c main_arg8) (V c main_arg9)) (V c main_arg10) (V c main_arg11) (V c main_arg12) (V c main_arg13)) := by
  show (cfg1.win 13).cut (grid1.coords t) ((dat1 V c).after 13 t) = _
  rw [after1_13, blk_0 V c t, blk_1 V c t, blk_2 V c t, blk_3 V c t, blk_4 V c t, blk_5 V c t, blk_6 V c t, blk_7 V c t,
    blk_8 V c t, blk_9 V c t, blk_10 V c t, blk_11 V c t, blk_12 V c t, out_13, trunk_rows, head_rows, read_13]
  rfl

/-- An index of the array of window 13 is in point t's block iff its row is among the block's rows. -/
theorem mem_blk_13 (t : Fin cfg1.N) (i : S100000x1.Idx) :
    i ∈ ((cfg1.win 13).blk t).view.set ↔ ∀ a : Fin 2, win1_13.index t a * S10000x1.size a ≤ (i a).val ∧ (i a).val < win1_13.index t a * S10000x1.size a + S10000x1.size a := by
  show i ∈ ((View.whole main_v19_0).slice (win1_13.rect t)).set ↔ _
  rw [View.set_slice_whole, Rect.mem_set_unit]
  exact Iff.rfl

/-- Every index of the array lies in the block of the point its row divided by 10000 names. -/
theorem cover_13 (i : S100000x1.Idx) : ∃ t : Fin cfg1.N, (cfg1.win 13).flush t = true ∧ i ∈ ((cfg1.win 13).blk t).view.set := by
  have hi0 : (i 0).val < 100000 := (i 0).isLt
  have hi1 : (i 1).val < 1 := (i 1).isLt
  have hN : cfg1.N = 10 := N_1
  let t : Fin cfg1.N := ⟨(i 0).val / 10000, by rw [hN]; omega⟩
  obtain ⟨e0, e1⟩ := idx_13 t
  have ht : t.val = (i 0).val / 10000 := rfl
  refine ⟨t, flush1_13 t, ?_⟩
  rw [mem_blk_13]
  intro a
  match a with
  | ⟨0, _⟩ => show win1_13.index t (0 : Fin 2) * 10000 ≤ (i 0).val ∧ (i 0).val < win1_13.index t (0 : Fin 2) * 10000 + 10000; omega
  | ⟨1, _⟩ => show win1_13.index t (1 : Fin 2) * 1 ≤ (i 1).val ∧ (i 1).val < win1_13.index t (1 : Fin 2) * 1 + 1; omega

/-- The array of window 13 after the region: the score head over the trunk of the arrays the region found. -/
theorem final_13 (c : Dev nD) :
    (dat1 V c).arrAt 13 cfg1.N
      = head (trunk (V c main_v18) (V c main_arg6) (V c main_arg7) (V c main_arg8) (V c main_arg9)) (V c main_arg10) (V c main_arg11) (V c main_arg12) (V c main_arg13) :=
  (dat1 V c).arrAt_eq_of_cover 13 _ (fun t _ => flushed_13 V c t) cover_13

/-! ## The type columns -/

theorem idx_14 : ∀ t : Fin cfg1.N, win1_14.index t (0 : Fin 2) = t.val ∧ win1_14.index t (1 : Fin 2) = 0 :=
  (by decide +kernel : ∀ t : Fin grid1.N, _)

/-- Output window 14's block at point t of any array: its rows from 10000·t on. -/
theorem read_14 (G : FVec Ideal S100000x4 .f32) (t : Fin cfg1.N) :
    (((cfg1.win 14).blk t).view.read (Elt Ideal) G : Vec Ideal S10000x4 .f32) = rows (rowOf t) G := by
  obtain ⟨e0, e1⟩ := idx_14 t
  funext j
  show G (((cfg1.win 14).blk t).view.emb j) = G (ix2 (rowOf t (j 0)) (j 1))
  refine congrArg G (funext fun a => Fin.ext ?_)
  match a with
  | ⟨0, _⟩ => show win1_14.index t (0 : Fin 2) * 10000 + 1 * (j 0).val = 10000 * t.val + (j 0).val; omega
  | ⟨1, _⟩ => show win1_14.index t (1 : Fin 2) * 4 + 1 * (j 1).val = (j 1).val; omega

/-- What point t writes back through window 14 is its block of the type head over the trunk of the whole arrays. -/
theorem flushed_14 (c : Dev nD) (t : Fin cfg1.N) :
    (dat1 V c).flushed 14 t = ((cfg1.win 14).blk t).view.read (Elt Ideal)
      (head (trunk (V c main_v18) (V c main_arg6) (V c main_arg7) (V c main_arg8) (V c main_arg9)) (V c main_arg14) (V c main_arg15) (V c main_arg16) (V c main_arg17)) := by
  show (cfg1.win 14).cut (grid1.coords t) ((dat1 V c).after 14 t) = _
  rw [after1_14, blk_0 V c t, blk_1 V c t, blk_2 V c t, blk_3 V c t, blk_4 V c t, blk_5 V c t, blk_6 V c t, blk_7 V c t,
    blk_8 V c t, blk_9 V c t, blk_10 V c t, blk_11 V c t, blk_12 V c t, out_14, trunk_rows, head_rows, read_14]
  rfl

/-- An index of the array of window 14 is in point t's block iff its row is among the block's rows. -/
theorem mem_blk_14 (t : Fin cfg1.N) (i : S100000x4.Idx) :
    i ∈ ((cfg1.win 14).blk t).view.set ↔ ∀ a : Fin 2, win1_14.index t a * S10000x4.size a ≤ (i a).val ∧ (i a).val < win1_14.index t a * S10000x4.size a + S10000x4.size a := by
  show i ∈ ((View.whole main_v19_1).slice (win1_14.rect t)).set ↔ _
  rw [View.set_slice_whole, Rect.mem_set_unit]
  exact Iff.rfl

/-- Every index of the array lies in the block of the point its row divided by 10000 names. -/
theorem cover_14 (i : S100000x4.Idx) : ∃ t : Fin cfg1.N, (cfg1.win 14).flush t = true ∧ i ∈ ((cfg1.win 14).blk t).view.set := by
  have hi0 : (i 0).val < 100000 := (i 0).isLt
  have hi1 : (i 1).val < 4 := (i 1).isLt
  have hN : cfg1.N = 10 := N_1
  let t : Fin cfg1.N := ⟨(i 0).val / 10000, by rw [hN]; omega⟩
  obtain ⟨e0, e1⟩ := idx_14 t
  have ht : t.val = (i 0).val / 10000 := rfl
  refine ⟨t, flush1_14 t, ?_⟩
  rw [mem_blk_14]
  intro a
  match a with
  | ⟨0, _⟩ => show win1_14.index t (0 : Fin 2) * 10000 ≤ (i 0).val ∧ (i 0).val < win1_14.index t (0 : Fin 2) * 10000 + 10000; omega
  | ⟨1, _⟩ => show win1_14.index t (1 : Fin 2) * 4 ≤ (i 1).val ∧ (i 1).val < win1_14.index t (1 : Fin 2) * 4 + 4; omega

/-- The array of window 14 after the region: the type head over the trunk of the arrays the region found. -/
theorem final_14 (c : Dev nD) :
    (dat1 V c).arrAt 14 cfg1.N
      = head (trunk (V c main_v18) (V c main_arg6) (V c main_arg7) (V c main_arg8) (V c main_arg9)) (V c main_arg14) (V c main_arg15) (V c main_arg16) (V c main_arg17) :=
  (dat1 V c).arrAt_eq_of_cover 14 _ (fun t _ => flushed_14 V c t) cover_14

end Cert.KernelIdeal.Post

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.Chain.lean ====
/-
  The aggregation between the two dense stages: every edge (s, d) of the edge list takes row d of the node table h,
  the rows taken are summed into their source rows s, each source row is divided by the larger of its edge count
  and one, and the quotient is added to h.

  The edge list is one integer array of two rows: row 0 the sources, row 1 the destinations. A destination below
  zero is first shifted up by the table's 100000 rows. One program takes the rows outright; the other takes them and
  then replaces, by a fill value, the rows whose (shifted) destination is not within 0 … 99999. When every
  destination is at least zero and below 100000 nothing is shifted, every test answers true, the fill is never
  chosen, and the two takes are one array.
-/
import proofs.«411923_j55843164782682_1_alg».proof.Proof.Gen.KernelIdeal
import proofs.«411923_j55843164782682_1_alg».proof.Proof.LibAllOnes
import Idealize.ShloMosaic.Lib.ValueIdx
import Idealize.ShloMosaic.Lib.Pipeline.Value
import Idealize.ShloMosaic.Lib.IdealHost

noncomputable section

namespace Cert.Chain

open Idealize.ShloMosaic Idealize.ShloMosaic.ValueIdx Cert.KernelIdeal Cert.KernelIdeal.Gen

/-- The sources: row 0 of the edge list. -/
def src (adj : IVec S2x3200000 32) : IVec S3200000 32 :=
  shapeCast S3200000 (extractStridedSlice S1x3200000 ![0, 0] adj slices_S2x3200000_S1x3200000_0_0) shapeCasts_S1x3200000_S3200000

/-- The destinations: row 1 of the edge list. -/
def dst (adj : IVec S2x3200000 32) : IVec S3200000 32 :=
  shapeCast S3200000 (extractStridedSlice S1x3200000 ![1, 0] adj slices_S2x3200000_S1x3200000_1_0) shapeCasts_S1x3200000_S3200000

/-- A destination below zero shifted up by 100000, the others as they are. -/
def shifted (d : IVec S3200000 32) : IVec S3200000 32 :=
  select (cmpi .slt d (broadcastInDim S3200000 ![] bcast_S_S3200000 (constantI S_ 32 0#32)))
    (addi d (broadcastInDim S3200000 ![] bcast_S_S3200000 (constantI S_ 32 100000#32))) d

/-- The shifted destinations as a column of start indices. -/
def startIdx (d : IVec S3200000 32) : IVec S3200000x1 32 :=
  broadcastInDim S3200000x1 ![0] bcast_S3200000_S3200000x1_0 (shifted d)

/-- Row d(e) of the table for every edge e. -/
def takeRows (h : FVec Ideal S100000x64 .f32) (d : IVec S3200000 32) : FVec Ideal S3200000x64 .f32 :=
  Host.gather gather_S100000x64_S3200000x1_S3200000x64_1_0_n_n_0_1_164 h (startIdx d)

/-- Per edge: is the shifted destination within 0 … 99999? -/
def inRange (d : IVec S3200000 32) : IVec S3200000 1 :=
  Host.reduce IntOp.andi
    (andi (cmpi .sge (startIdx d) (broadcastInDim S3200000x1 ![] bcast_S_S3200000x1 (constantI S_ 32 0#32)))
      (cmpi .sle (startIdx d) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The rows taken, with a fill value in place of a row whose destination is out of range. -/
def takeRowsFill (h : FVec Ideal S100000x64 .f32) (d : IVec S3200000 32) : FVec Ideal S3200000x64 .f32 :=
  select (broadcastInDim S3200000x64 ![0] bcast_S3200000_S3200000x64_0 (inRange d)) (takeRows h d)
    (broadcastInDim S3200000x64 ![] bcast_S_S3200000x64 (constant S_ .f32 0x7FC00000#32))

/-- The table plus, row by row, the sum of the rows g(e) over the edges e with source that row, divided by the
    larger of the number of such edges and one. -/
def aggregate (h : FVec Ideal S100000x64 .f32) (g : FVec Ideal S3200000x64 .f32) (s : IVec S3200000 32) :
    FVec Ideal S100000x64 .f32 :=
  addf h (Host.divf
    (Host.scatterAdd scatter_S100000x64_S3200000x1_S3200000x64_1_0_0_1
      (broadcastInDim S100000x64 ![] bcast_S_S100000x64 (constant S_ .f32 0x00000000#32))
      (broadcastInDim S3200000x1 ![0] bcast_S3200000_S3200000x1_0 s) g)
    (broadcastInDim S100000x64 ![0, 1] bcast_S100000x1_S100000x64_0_1 (broadcastInDim S100000x1 ![0] bcast_S100000_S100000x1_0
      (maximumf
        (Host.scatterAdd scatter_S100000_S3200000x1_S3200000_n_0_0_1
          (broadcastInDim S100000 ![] bcast_S_S100000 (constant S_ .f32 0x00000000#32))
          (broadcastInDim S3200000x1 ![0] bcast_S3200000_S3200000x1_0 s)
          (broadcastInDim S3200000 ![] bcast_S_S3200000 (constant S_ .f32 0x3F800000#32)))
        (broadcastInDim S100000 ![] bcast_S_S100000 (constant S_ .f32 0x3F800000#32))))))

/-- An array over the edges laid out as a column reads, at edge e, the array at e. -/
theorem col_apply (v : IVec S3200000 32) (i : S3200000x1.Idx) :
    broadcastInDim S3200000x1 ![0] bcast_S3200000_S3200000x1_0 v i = v (ix1 (i 0 : Fin 3200000)) := by
  refine broadcastInDim_apply ![0] bcast_S3200000_S3200000x1_0 v i (ix1 (i 0 : Fin 3200000)) fun a => ?_
  have ha : a = 0 := Subsingleton.elim _ _
  subst ha
  split
  · next h1 => change (3200000 : ℕ) = 1 at h1; omega
  · rfl

/-- The column of start indices at edge e is the shifted destination of e. -/
theorem startIdx_apply (d : IVec S3200000 32) (i : S3200000x1.Idx) :
    startIdx d i = shifted d (ix1 (i 0 : Fin 3200000)) := col_apply (shifted d) i

/-- A destination that is at least zero is not shifted. -/
theorem shifted_apply (d : IVec S3200000 32) (e : S3200000.Idx) (h0 : IntOp.cmpi .sge (d e) 0#32 = 1#1)
    (h1 : IntOp.cmpi .slt (d e) 100000#32 = 1#1) : shifted d e = d e := by
  have hlt : (d e).toNat < 100000 := LibAllOnes.toNat_lt_of_signed (d e) 100000 (by decide) h0 h1
  show Scalar.select (IntOp.cmpi .slt (d e) (broadcastInDim S3200000 ![] bcast_S_S3200000 (constantI S_ 32 0#32) e)) _ (d e) = d e
  rw [broadcastInDim_scalar_apply]
  show Scalar.select (IntOp.cmpi .slt (d e) 0#32) _ (d e) = d e
  rw [LibAllOnes.slt_zero (d e) (by omega), select_zero]

/-- With every destination at least zero and below 100000, every edge's test answers true. -/
theorem inRange_eq_ones (d : IVec S3200000 32)
    (hd : ∀ e, IntOp.cmpi .sge (d e) 0#32 = 1#1 ∧ IntOp.cmpi .slt (d e) 100000#32 = 1#1) :
    inRange d = fun _ => 1#1 := by
  funext j
  unfold inRange
  refine LibAllOnes.reduce_andi_ones _ _ _ _ j (fun _ => rfl) (fun i => ?_)
  have hlt : (d (ix1 (i 0 : Fin 3200000))).toNat < 100000 :=
    LibAllOnes.toNat_lt_of_signed _ 100000 (by decide) (hd _).1 (hd _).2
  show IntOp.andi (IntOp.cmpi .sge (startIdx d i) (broadcastInDim S3200000x1 ![] bcast_S_S3200000x1 (constantI S_ 32 0#32) i))
    (IntOp.cmpi .sle (startIdx d i) (broadcastInDim S3200000x1 ![0, 1] bcast_S1x1_S3200000x1_0_1
        (broadcastInDim S1x1 ![1] bcast_S1_S1x1_1 (constantI S1 32 99999#32)) i)) = 1#1
  rw [startIdx_apply, shifted_apply d _ (hd _).1 (hd _).2, broadcastInDim_scalar_apply]
  have e9 : broadcastInDim S3200000x1 ![0, 1] bcast_S1x1_S3200000x1_0_1
      (broadcastInDim S1x1 ![1] bcast_S1_S1x1_1 (constantI S1 32 99999#32)) i = 99999#32 := rfl
  rw [e9]
  show IntOp.andi (IntOp.cmpi .sge (d (ix1 (i 0 : Fin 3200000))) 0#32) (IntOp.cmpi .sle (d (ix1 (i 0 : Fin 3200000))) 99999#32) = 1#1
  rw [LibAllOnes.sge_zero _ (by omega), LibAllOnes.sle_ofNat _ 99999 (by decide) (by omega)]
  decide

/-- With every destination at least zero and below 100000 the fill is never chosen: the two takes are one array. -/
theorem takeRowsFill_eq (h : FVec Ideal S100000x64 .f32) (d : IVec S3200000 32)
    (hd : ∀ e, IntOp.cmpi .sge (d e) 0#32 = 1#1 ∧ IntOp.cmpi .slt (d e) 100000#32 = 1#1) :
    takeRowsFill h d = takeRows h d := by
  unfold takeRowsFill
  rw [inRange_eq_ones d hd]
  funext j
  exact select_one _ _

end Cert.Chain

end
-- ==== Proof.LibTypedRef.lean ====
/-
  A value written through a typed reference and read back through it is the value: the two transports along the
  reference's type equation cancel.
-/
import Idealize.ShloMosaic.Lib.StableHlo

noncomputable section

namespace Cert.LibTypedRef

open Idealize.ShloMosaic Idealize.ShloMosaic.StableHlo

theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibTypedRef

end
-- ==== Proof.Fold.lean ====
/-
  The two results of the kernel program as one function of the launch memory.

  The contents at the last segment boundary are a fold from the launch memory through the program's segments. Read
  backwards: the first result is the second region's score column cast to a vector, the second its type columns.
  The second region's outputs are the two heads over the trunk of the table it found in its first window. That
  table is what the host stretches between the regions computed — the aggregation of the first region's output
  with the edge list — and the first region's output is the encoder of the feature table. No segment writes an
  argument array, so every weight, bias and the edge list are read as launched.
-/
import proofs.«411923_j55843164782682_1_alg».proof.Proof.Gen.KernelIdeal.Frame
import proofs.«411923_j55843164782682_1_alg».proof.Proof.EncValue
import proofs.«411923_j55843164782682_1_alg».proof.Proof.PostValue
import proofs.«411923_j55843164782682_1_alg».proof.Proof.Chain
import proofs.«411923_j55843164782682_1_alg».proof.Proof.LibTypedRef
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem
open Idealize.ShloMosaic.StableHlo
open Cert.KernelIdeal Cert.KernelIdeal.Gen Cert.Layer Cert.Net

variable (m : (ℓ : Loc nD τ sig) → Buf (Elt Ideal) ℓ) (ρ : Dev nD → PrngReg)

/-- The first result is the score column, cast from one column to a vector. -/
theorem W6_v20 (c : Dev nD) : W6 m ρ c (Proc.devRef .tc main_v20)
    = shapeCast S100000 (W5 m ρ c (Proc.devRef .tc main_v19_0)) shapeCasts_S100000x1_S100000 := by
  show StableHlo.after hostOps2 (W5 m ρ c) (Proc.devRef .tc main_v20) = _
  after_results
  rfl

/-- The second result is the type columns as the second region left them. -/
theorem W6_v19_1 (c : Dev nD) : W6 m ρ c (Proc.devRef .tc main_v19_1) = W5 m ρ c (Proc.devRef .tc main_v19_1) := by
  show StableHlo.after hostOps2 (W5 m ρ c) (Proc.devRef .tc main_v19_1) = _
  after_results

/-! ## The second host stretch's operations, folded into the chain's names -/

/-- The column of start indices, as the operations spell it. -/
theorem startIdx_def (d : IVec S3200000 32) :
    broadcastInDim S3200000x1 ![0] bcast_S3200000_S3200000x1_0
      (select (cmpi CmpIPredicate.slt d (broadcastInDim S3200000 ![] bcast_S_S3200000 (constantI S_ 32 0#32)))
        (addi d (broadcastInDim S3200000 ![] bcast_S_S3200000 (constantI S_ 32 100000#32))) d) = Chain.startIdx d := rfl

/-- The per-edge range test, as the operations spell it. -/
theorem inRange_def (d : IVec S3200000 32) :
    Host.reduce IntOp.andi
      (andi (cmpi CmpIPredicate.sge (Chain.startIdx d) (broadcastInDim S3200000x1 ![] bcast_S_S3200000x1 (constantI S_ 32 0#32)))
        (cmpi CmpIPredicate.sle (Chain.startIdx d) (broadcastInDim S3200000x1 ![0, 1] bcast_S1x1_S3200000x1_0_1
          (broadcastInDim S1x1 ![1] bcast_S1_S1x1_1 (constantI S1 32 99999#32)))))
      (constantI S_ 1 1#1) reducesTo_S3200000x1_S3200000_d1 h_S_ = Chain.inRange d := rfl

/-- The rows taken with the fill, as the operations spell it. -/
theorem takeRowsFill_def (H : FVec Ideal S100000x64 .f32) (d : IVec S3200000 32) :
    select (broadcastInDim S3200000x64 ![0] bcast_S3200000_S3200000x64_0 (Chain.inRange d))
      (Host.gather gather_S100000x64_S3200000x1_S3200000x64_1_0_n_n_0_1_164 H (Chain.startIdx d))
      (broadcastInDim S3200000x64 ![] bcast_S_S3200000x64 (constant S_ FTy.f32 0x7FC00000#32)) = Chain.takeRowsFill H d := rfl

/-- A value read or written through a typed reference to a buffer of exactly that type is the value itself. -/
theorem ofBuf_v0 (v : FVec Ideal S100000x64 .f32) :
    (StableHlo.TRef.of main_v0 : StableHlo.TRef sig ⟨S100000x64, .f32⟩).ofBuf (Val := Elt Ideal) v = v := rfl
theorem ofBuf_v4 (v : IVec S3200000 32) :
    (StableHlo.TRef.of main_v4 : StableHlo.TRef sig ⟨S3200000, .i32⟩).ofBuf (Val := Elt Ideal) v = v := rfl
theorem toBuf_v5 (v : FVec Ideal S3200000x64 .f32) :
    (StableHlo.TRef.of main_v5 : StableHlo.TRef sig ⟨S3200000x64, .f32⟩).toBuf (Val := Elt Ideal) v = v := rfl

section Stretches

variable (X : Valuation τ sig (Elt Ideal))

/-- The first host stretch cuts the edge list into its sources … -/
theorem src_of : StableHlo.after hostOps1 X (Proc.devRef .tc main_v2) = Chain.src (X (Proc.devRef .tc main_arg1)) := by
  after_results
  rfl

/-- … and its destinations, -/
theorem dst_of : StableHlo.after hostOps1 X (Proc.devRef .tc main_v4) = Chain.dst (X (Proc.devRef .tc main_arg1)) := by
  after_results
  rfl

/-- and leaves the first region's output alone. -/
theorem keep_v0 : StableHlo.after hostOps1 X (Proc.devRef .tc main_v0) = X (Proc.devRef .tc main_v0) := by
  after_results

/-- The second host stretch takes, for every edge, the destination's row of the first region's output, with the
    fill value where the destination is out of range, -/
theorem take_of : StableHlo.after hostOps1_1 X (Proc.devRef .tc main_v5)
    = Chain.takeRowsFill (X (Proc.devRef .tc main_v0)) (X (Proc.devRef .tc main_v4)) := by
  after_results_simp
  simp only [LibTypedRef.ofBuf_toBuf, ofBuf_v0, ofBuf_v4, toBuf_v5]
  rw [startIdx_def, inRange_def, takeRowsFill_def]

/-- and leaves the first region's output and the sources alone. -/
theorem keep'_v0 : StableHlo.after hostOps1_1 X (Proc.devRef .tc main_v0) = X (Proc.devRef .tc main_v0) := by
  after_results_simp
theorem keep'_v2 : StableHlo.after hostOps1_1 X (Proc.devRef .tc main_v2) = X (Proc.devRef .tc main_v2) := by
  after_results_simp

/-- The third host stretch sums the rows taken into their source rows, divides by the edge counts and adds the
    first region's output. -/
theorem agg_of : StableHlo.after hostOps1_2 X (Proc.devRef .tc main_v18)
    = Chain.aggregate (X (Proc.devRef .tc main_v0)) (X (Proc.devRef .tc main_v5)) (X (Proc.devRef .tc main_v2)) := by
  after_results_simp
  rfl

end Stretches

/-- The table the second region finds: the aggregation of the first region's output with the edge list. -/
theorem V4_v18 (c : Dev nD) : V4 m ρ c main_v18
    = Chain.aggregate (V1 m ρ c main_v0) (Chain.takeRowsFill (V1 m ρ c main_v0) (Chain.dst (V1 m ρ c main_arg1)))
        (Chain.src (V1 m ρ c main_arg1)) := by
  show StableHlo.after hostOps1_2 (StableHlo.after hostOps1_1 (StableHlo.after hostOps1 (W1 m ρ c))) (Proc.devRef .tc main_v18) = _
  rw [agg_of, keep'_v0, keep_v0, take_of, keep_v0, dst_of, keep'_v2, src_of]

/-- The first region's output, and the edge list as launched, when the first region is left. -/
theorem V1_v0 (c : Dev nD) : V1 m ρ c main_v0 = (dat0 (V0 m ρ) c).arrAt 5 cfg0.N := W1_arr m ρ c 5
theorem V1_arg1 (c : Dev nD) : V1 m ρ c main_arg1 = m ((c : Thread nD τ).loc main_arg1) :=
  W1_of_ne m ρ c main_arg1 (by decide)

/-- Argument 6 is as launched when the second region is entered. -/
theorem V4_arg6 (c : Dev nD) : V4 m ρ c main_arg6 = m ((c : Thread nD τ).loc main_arg6) := by
  have e1 : W6 m ρ c (Proc.devRef .tc main_arg6) = W5 m ρ c (Proc.devRef .tc main_arg6) := by
    show StableHlo.after hostOps2 (W5 m ρ c) (Proc.devRef .tc main_arg6) = _
    after_results
  have e2 : W5 m ρ c (Proc.devRef .tc main_arg6) = V4 m ρ c main_arg6 :=
    (W5_arr m ρ c 1).trans (((dat1 (V4 m ρ) c).arrAt_in 1 rfl _).trans (A_eq1 (V4 m ρ) c 1))
  exact (e2.symm.trans e1.symm).trans (W6_main_arg6 m ρ c)

/-- Argument 7 is as launched when the second region is entered. -/
theorem V4_arg7 (c : Dev nD) : V4 m ρ c main_arg7 = m ((c : Thread nD τ).loc main_arg7) := by
  have e1 : W6 m ρ c (Proc.devRef .tc main_arg7) = W5 m ρ c (Proc.devRef .tc main_arg7) := by
    show StableHlo.after hostOps2 (W5 m ρ c) (Proc.devRef .tc main_arg7) = _
    after_results
  have e2 : W5 m ρ c (Proc.devRef .tc main_arg7) = V4 m ρ c main_arg7 :=
    (W5_arr m ρ c 2).trans (((dat1 (V4 m ρ) c).arrAt_in 2 rfl _).trans (A_eq1 (V4 m ρ) c 2))
  exact (e2.symm.trans e1.symm).trans (W6_main_arg7 m ρ c)

/-- Argument 8 is as launched when the second region is entered. -/
theorem V4_arg8 (c : Dev nD) : V4 m ρ c main_arg8 = m ((c : Thread nD τ).loc main_arg8) := by
  have e1 : W6 m ρ c (Proc.devRef .tc main_arg8) = W5 m ρ c (Proc.devRef .tc main_arg8) := by
    show StableHlo.after hostOps2 (W5 m ρ c) (Proc.devRef .tc main_arg8) = _
    after_results
  have e2 : W5 m ρ c (Proc.devRef .tc main_arg8) = V4 m ρ c main_arg8 :=
    (W5_arr m ρ c 3).trans (((dat1 (V4 m ρ) c).arrAt_in 3 rfl _).trans (A_eq1 (V4 m ρ) c 3))
  exact (e2.symm.trans e1.symm).trans (W6_main_arg8 m ρ c)

/-- Argument 9 is as launched when the second region is entered. -/
theorem V4_arg9 (c : Dev nD) : V4 m ρ c main_arg9 = m ((c : Thread nD τ).loc main_arg9) := by
  have e1 : W6 m ρ c (Proc.devRef .tc main_arg9) = W5 m ρ c (Proc.devRef .tc main_arg9) := by
    show StableHlo.after hostOps2 (W5 m ρ c) (Proc.devRef .tc main_arg9) = _
    after_results
  have e2 : W5 m ρ c (Proc.devRef .tc main_arg9) = V4 m ρ c main_arg9 :=
    (W5_arr m ρ c 4).trans (((dat1 (V4 m ρ) c).arrAt_in 4 rfl _).trans (A_eq1 (V4 m ρ) c 4))
  exact (e2.symm.trans e1.symm).trans (W6_main_arg9 m ρ c)

/-- Argument 10 is as launched when the second region is entered. -/
theorem V4_arg10 (c : Dev nD) : V4 m ρ c main_arg10 = m ((c : Thread nD τ).loc main_arg10) := by
  have e1 : W6 m ρ c (Proc.devRef .tc main_arg10) = W5 m ρ c (Proc.devRef .tc main_arg10) := by
    show StableHlo.after hostOps2 (W5 m ρ c) (Proc.devRef .tc main_arg10) = _
    after_results
  have e2 : W5 m ρ c (Proc.devRef .tc main_arg10) = V4 m ρ c main_arg10 :=
    (W5_arr m ρ c 5).trans (((dat1 (V4 m ρ) c).arrAt_in 5 rfl _).trans (A_eq1 (V4 m ρ) c 5))
  exact (e2.symm.trans e1.symm).trans (W6_main_arg10 m ρ c)

/-- Argument 11 is as launched when the second region is entered. -/
theorem V4_arg11 (c : Dev nD) : V4 m ρ c main_arg11 = m ((c : Thread nD τ).loc main_arg11) := by
  have e1 : W6 m ρ c (Proc.devRef .tc main_arg11) = W5 m ρ c (Proc.devRef .tc main_arg11) := by
    show StableHlo.after hostOps2 (W5 m ρ c) (Proc.devRef .tc main_arg11) = _
    after_results
  have e2 : W5 m ρ c (Proc.devRef .tc main_arg11) = V4 m ρ c main_arg11 :=
    (W5_arr m ρ c 6).trans (((dat1 (V4 m ρ) c).arrAt_in 6 rfl _).trans (A_eq1 (V4 m ρ) c 6))
  exact (e2.symm.trans e1.symm).trans (W6_main_arg11 m ρ c)

/-- Argument 12 is as launched when the second region is entered. -/
theorem V4_arg12 (c : Dev nD) : V4 m ρ c main_arg12 = m ((c : Thread nD τ).loc main_arg12) := by
  have e1 : W6 m ρ c (Proc.devRef .tc main_arg12) = W5 m ρ c (Proc.devRef .tc main_arg12) := by
    show StableHlo.after hostOps2 (W5 m ρ c) (Proc.devRef .tc main_arg12) = _
    after_results
  have e2 : W5 m ρ c (Proc.devRef .tc main_arg12) = V4 m ρ c main_arg12 :=
    (W5_arr m ρ c 7).trans (((dat1 (V4 m ρ) c).arrAt_in 7 rfl _).trans (A_eq1 (V4 m ρ) c 7))
  exact (e2.symm.trans e1.symm).trans (W6_main_arg12 m ρ c)

/-- Argument 13 is as launched when the second region is entered. -/
theorem V4_arg13 (c : Dev nD) : V4 m ρ c main_arg13 = m ((c : Thread nD τ).loc main_arg13) := by
  have e1 : W6 m ρ c (Proc.devRef .tc main_arg13) = W5 m ρ c (Proc.devRef .tc main_arg13) := by
    show StableHlo.after hostOps2 (W5 m ρ c) (Proc.devRef .tc main_arg13) = _
    after_results
  have e2 : W5 m ρ c (Proc.devRef .tc main_arg13) = V4 m ρ c main_arg13 :=
    (W5_arr m ρ c 8).trans (((dat1 (V4 m ρ) c).arrAt_in 8 rfl _).trans (A_eq1 (V4 m ρ) c 8))
  exact (e2.symm.trans e1.symm).trans (W6_main_arg13 m ρ c)

/-- Argument 14 is as launched when the second region is entered. -/
theorem V4_arg14 (c : Dev nD) : V4 m ρ c main_arg14 = m ((c : Thread nD τ).loc main_arg14) := by
  have e1 : W6 m ρ c (Proc.devRef .tc main_arg14) = W5 m ρ c (Proc.devRef .tc main_arg14) := by
    show StableHlo.after hostOps2 (W5 m ρ c) (Proc.devRef .tc main_arg14) = _
    after_results
  have e2 : W5 m ρ c (Proc.devRef .tc main_arg14) = V4 m ρ c main_arg14 :=
    (W5_arr m ρ c 9).trans (((dat1 (V4 m ρ) c).arrAt_in 9 rfl _).trans (A_eq1 (V4 m ρ) c 9))
  exact (e2.symm.trans e1.symm).trans (W6_main_arg14 m ρ c)

/-- Argument 15 is as launched when the second region is entered. -/
theorem V4_arg15 (c : Dev nD) : V4 m ρ c main_arg15 = m ((c : Thread nD τ).loc main_arg15) := by
  have e1 : W6 m ρ c (Proc.devRef .tc main_arg15) = W5 m ρ c (Proc.devRef .tc main_arg15) := by
    show StableHlo.after hostOps2 (W5 m ρ c) (Proc.devRef .tc main_arg15) = _
    after_results
  have e2 : W5 m ρ c (Proc.devRef .tc main_arg15) = V4 m ρ c main_arg15 :=
    (W5_arr m ρ c 10).trans (((dat1 (V4 m ρ) c).arrAt_in 10 rfl _).trans (A_eq1 (V4 m ρ) c 10))
  exact (e2.symm.trans e1.symm).trans (W6_main_arg15 m ρ c)

/-- Argument 16 is as launched when the second region is entered. -/
theorem V4_arg16 (c : Dev nD) : V4 m ρ c main_arg16 = m ((c : Thread nD τ).loc main_arg16) := by
  have e1 : W6 m ρ c (Proc.devRef .tc main_arg16) = W5 m ρ c (Proc.devRef .tc main_arg16) := by
    show StableHlo.after hostOps2 (W5 m ρ c) (Proc.devRef .tc main_arg16) = _
    after_results
  have e2 : W5 m ρ c (Proc.devRef .tc main_arg16) = V4 m ρ c main_arg16 :=
    (W5_arr m ρ c 11).trans (((dat1 (V4 m ρ) c).arrAt_in 11 rfl _).trans (A_eq1 (V4 m ρ) c 11))
  exact (e2.symm.trans e1.symm).trans (W6_main_arg16 m ρ c)

/-- Argument 17 is as launched when the second region is entered. -/
theorem V4_arg17 (c : Dev nD) : V4 m ρ c main_arg17 = m ((c : Thread nD τ).loc main_arg17) := by
  have e1 : W6 m ρ c (Proc.devRef .tc main_arg17) = W5 m ρ c (Proc.devRef .tc main_arg17) := by
    show StableHlo.after hostOps2 (W5 m ρ c) (Proc.devRef .tc main_arg17) = _
    after_results
  have e2 : W5 m ρ c (Proc.devRef .tc main_arg17) = V4 m ρ c main_arg17 :=
    (W5_arr m ρ c 12).trans (((dat1 (V4 m ρ) c).arrAt_in 12 rfl _).trans (A_eq1 (V4 m ρ) c 12))
  exact (e2.symm.trans e1.symm).trans (W6_main_arg17 m ρ c)

end Cert.KernelIdeal.Fold

end
-- ==== Proof.KernelValue.lean ====
/-
  The kernel program's run with its two results as the stages' composition.

  Every weakly fair execution ends with the two result buffers at the last boundary's contents. Read back through
  the segments these are the score head's column (cast to a vector) and the type head over the trunk of the
  aggregated encoder output — the aggregation with the out-of-range fill. When every destination index is at
  least zero and below 100000 the fill is never chosen, and the aggregation is the one that takes the rows outright.
-/
import proofs.«411923_j55843164782682_1_alg».proof.Proof.Fold
import proofs.«411923_j55843164782682_1_alg».proof.Proof.KRun

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Fold Cert.Layer Cert.Net

variable (m : (ℓ : Loc nD τ sig) → Buf (Elt Ideal) ℓ) (ρ : Dev nD → PrngReg)

/-- At the launch the first region finds its five arguments as launched. -/
theorem V0_arg0 (c : Dev nD) : V0 m ρ c main_arg0 = m ((c : Thread nD τ).loc main_arg0) := rfl
theorem V0_arg2 (c : Dev nD) : V0 m ρ c main_arg2 = m ((c : Thread nD τ).loc main_arg2) := rfl
theorem V0_arg3 (c : Dev nD) : V0 m ρ c main_arg3 = m ((c : Thread nD τ).loc main_arg3) := rfl
theorem V0_arg4 (c : Dev nD) : V0 m ρ c main_arg4 = m ((c : Thread nD τ).loc main_arg4) := rfl
theorem V0_arg5 (c : Dev nD) : V0 m ρ c main_arg5 = m ((c : Thread nD τ).loc main_arg5) := rfl

/-- The table the second region finds, as a function of the launch memory. -/
theorem table_eq (c : Dev nD)
    (hd : ∀ e, IntOp.cmpi .sge (Chain.dst (m ((c : Thread nD τ).loc main_arg1)) e) 0#32 = 1#1 ∧ IntOp.cmpi .slt (Chain.dst (m ((c : Thread nD τ).loc main_arg1)) e) 100000#32 = 1#1) :
    V4 m ρ c main_v18 = (Chain.aggregate (enc (m ((c : Thread nD τ).loc main_arg0)) (m ((c : Thread nD τ).loc main_arg2)) (m ((c : Thread nD τ).loc main_arg3)) (m ((c : Thread nD τ).loc main_arg4)) (m ((c : Thread nD τ).loc main_arg5))) (Chain.takeRows (enc (m ((c : Thread nD τ).loc main_arg0)) (m ((c : Thread nD τ).loc main_arg2)) (m ((c : Thread nD τ).loc main_arg3)) (m ((c : Thread nD τ).loc main_arg4)) (m ((c : Thread nD τ).loc main_arg5))) (Chain.dst (m ((c : Thread nD τ).loc main_arg1)))) (Chain.src (m ((c : Thread nD τ).loc main_arg1)))) := by
  rw [V4_v18, V1_v0, Enc.final (V0 m ρ) c, V1_arg1, Chain.takeRowsFill_eq _ _ hd, V0_arg0, V0_arg2, V0_arg3, V0_arg4, V0_arg5]

/-- The score column after the second region. -/
theorem scores_eq (c : Dev nD)
    (hd : ∀ e, IntOp.cmpi .sge (Chain.dst (m ((c : Thread nD τ).loc main_arg1)) e) 0#32 = 1#1 ∧ IntOp.cmpi .slt (Chain.dst (m ((c : Thread nD τ).loc main_arg1)) e) 100000#32 = 1#1) :
    W6 m ρ c (Proc.devRef .tc main_v20)
      = shapeCast S100000 (head (trunk (Chain.aggregate (enc (m ((c : Thread nD τ).loc main_arg0)) (m ((c : Thread nD τ).loc main_arg2)) (m ((c : Thread nD τ).loc main_arg3)) (m ((c : Thread nD τ).loc main_arg4)) (m ((c : Thread nD τ).loc main_arg5))) (Chain.takeRows (enc (m ((c : Thread nD τ).loc main_arg0)) (m ((c : Thread nD τ).loc main_arg2)) (m ((c : Thread nD τ).loc main_arg3)) (m ((c : Thread nD τ).loc main_arg4)) (m ((c : Thread nD τ).loc main_arg5))) (Chain.dst (m ((c : Thread nD τ).loc main_arg1)))) (Chain.src (m ((c : Thread nD τ).loc main_arg1)))) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13))) shapeCasts_S100000x1_S100000 := by
  have e13 : W5 m ρ c (Proc.devRef .tc main_v19_0) = (dat1 (V4 m ρ) c).arrAt 13 cfg1.N := W5_arr m ρ c 13
  rw [W6_v20, e13, Post.final_13 (V4 m ρ) c, table_eq m ρ c hd, V4_arg6, V4_arg7, V4_arg8, V4_arg9, V4_arg10, V4_arg11,
    V4_arg12, V4_arg13]

/-- The type columns after the second region. -/
theorem types_eq (c : Dev nD)
    (hd : ∀ e, IntOp.cmpi .sge (Chain.dst (m ((c : Thread nD τ).loc main_arg1)) e) 0#32 = 1#1 ∧ IntOp.cmpi .slt (Chain.dst (m ((c : Thread nD τ).loc main_arg1)) e) 100000#32 = 1#1) :
    W6 m ρ c (Proc.devRef .tc main_v19_1)
      = head (trunk (Chain.aggregate (enc (m ((c : Thread nD τ).loc main_arg0)) (m ((c : Thread nD τ).loc main_arg2)) (m ((c : Thread nD τ).loc main_arg3)) (m ((c : Thread nD τ).loc main_arg4)) (m ((c : Thread nD τ).loc main_arg5))) (Chain.takeRows (enc (m ((c : Thread nD τ).loc main_arg0)) (m ((c : Thread nD τ).loc main_arg2)) (m ((c : Thread nD τ).loc main_arg3)) (m ((c : Thread nD τ).loc main_arg4)) (m ((c : Thread nD τ).loc main_arg5))) (Chain.dst (m ((c : Thread nD τ).loc main_arg1)))) (Chain.src (m ((c : Thread nD τ).loc main_arg1)))) (m ((c : Thread nD τ).loc main_arg6)) (m ((c : Thread nD τ).loc main_arg7)) (m ((c : Thread nD τ).loc main_arg8)) (m ((c : Thread nD τ).loc main_arg9))) (m ((c : Thread nD τ).loc main_arg14)) (m ((c : Thread nD τ).loc main_arg15)) (m ((c : Thread nD τ).loc main_arg16)) (m ((c : Thread nD τ).loc main_arg17)) := by
  have e14 : W5 m ρ c (Proc.devRef .tc main_v19_1) = (dat1 (V4 m ρ) c).arrAt 14 cfg1.N := W5_arr m ρ c 14
  rw [W6_v19_1, e14, Post.final_14 (V4 m ρ) c, table_eq m ρ c hd, V4_arg6, V4_arg7, V4_arg8, V4_arg9, V4_arg14, V4_arg15,
    V4_arg16, V4_arg17]

/-- The run: every weakly fair execution ends with the two results at the stages' composition of the launch memory
    and the arguments as launched. -/
theorem run
    (hd : ∀ (c : Dev nD) e, IntOp.cmpi .sge (Chain.dst (m ((c : Thread nD τ).loc main_arg1)) e) 0#32 = 1#1 ∧ IntOp.cmpi .slt (Chain.dst (m ((c : Thread nD τ).loc main_arg1)) e) 100000#32 = 1#1) :
    θ_run defs (onTc (τ := τ) (main (F := Ideal))) ⟨m, fun _ => 0, ρ⟩ (fun r => ∀ c : Dev nD,
      r.2.mem ((c.tc : Thread nD τ).loc main_v20)
        = shapeCast S100000 (head (trunk (Chain.aggregate (enc (m ((c : Thread nD τ).loc main_arg0)) (m ((c : Thread nD τ).loc main_arg2)) (m ((c : Thread nD τ).loc main_arg3)) (m ((c : Thread nD τ).loc main_arg4)) (m ((c : Thread nD τ).loc main_arg5))) (Chain.takeRows (enc (m ((c : Thread nD τ).loc main_arg0)) (m ((c : Thread nD τ).loc main_arg2)) (m ((c : Thread nD τ).loc main_arg3)) (m ((c : Thread nD τ).loc main_arg4)) (m ((c : Thread nD τ).loc main_arg5))) (Chain.dst (m ((c : Thread nD τ).loc main_arg1)))) (Chain.src (m ((c : Thread nD τ).loc main_arg1)))) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13))) shapeCasts_S100000x1_S100000
      ∧ r.2.mem ((c.tc : Thread nD τ).loc main_v19_1) = head (trunk (Chain.aggregate (enc (m ((c : Thread nD τ).loc main_arg0)) (m ((c : Thread nD τ).loc main_arg2)) (m ((c : Thread nD τ).loc main_arg3)) (m ((c : Thread nD τ).loc main_arg4)) (m ((c : Thread nD τ).loc main_arg5))) (Chain.takeRows (enc (m ((c : Thread nD τ).loc main_arg0)) (m ((c : Thread nD τ).loc main_arg2)) (m ((c : Thread nD τ).loc main_arg3)) (m ((c : Thread nD τ).loc main_arg4)) (m ((c : Thread nD τ).loc main_arg5))) (Chain.dst (m ((c : Thread nD τ).loc main_arg1)))) (Chain.src (m ((c : Thread nD τ).loc main_arg1)))) (m ((c : Thread nD τ).loc main_arg6)) (m ((c : Thread nD τ).loc main_arg7)) (m ((c : Thread nD τ).loc main_arg8)) (m ((c : Thread nD τ).loc main_arg9))) (m ((c : Thread nD τ).loc main_arg14)) (m ((c : Thread nD τ).loc main_arg15)) (m ((c : Thread nD τ).loc main_arg16)) (m ((c : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (scores_eq m ρ c (hd c)), (h c).2.1.trans (types_eq m ρ c (hd c)), (h c).2.2⟩)
    (run_results m ρ)

end Cert.KernelIdeal.KernelValue

end
-- ==== Proof.RefValue.lean ====
/-
  The reference's two results as the same composition of stages.

  The reference computes, on the host and on all 100000 rows at once, the encoder of the feature table, the
  aggregation of that table with the edge list (taking the rows outright), the trunk, and the two heads; its first
  result is the score head's one column cast to a vector, its second the type head. Each of its layers is spelt as
  a general product plus the bias broadcast twice, each positive part as a maximum with the zero constant
  broadcast; read as layers and positive parts, its two composed terms are the stages' compositions.
-/
import proofs.«411923_j55843164782682_1_alg».proof.Proof.Gen.ReferenceIdeal.Run
import proofs.«411923_j55843164782682_1_alg».proof.Proof.Net
import proofs.«411923_j55843164782682_1_alg».proof.Proof.Chain

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Layer Cert.Net

variable (m : (ℓ : Loc nD τ sig) → Buf (Elt Ideal) ℓ) (c : Dev nD)

/-- The second result: the type head over the trunk of the aggregated encoder output. -/
theorem types_eq : res_main_v61 (F := Ideal) m c
    = head (trunk (Chain.aggregate (enc (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (Chain.takeRows (enc (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (Chain.dst (m ((c.tc : Thread nD τ).loc main_arg1)))) (Chain.src (m ((c.tc : Thread nD τ).loc main_arg1)))) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg14)) (m ((c.tc : Thread nD τ).loc main_arg15)) (m ((c.tc : Thread nD τ).loc main_arg16)) (m ((c.tc : Thread nD τ).loc main_arg17)) := by
  unfold res_main_v61
  simp only [
    host_lin (M := 100000) (K := 6) (N := 64) dot_S100000x6_S6x64_S100000x64_1_0_0_1_n_n rfl rfl rfl rfl rfl rfl,
    host_lin (M := 100000) (K := 64) (N := 64) dot_S100000x64_S64x64_S100000x64_1_0_0_1_n_n rfl rfl rfl rfl rfl rfl,
    host_lin (M := 100000) (K := 64) (N := 32) dot_S100000x64_S64x32_S100000x32_1_0_0_1_n_n rfl rfl rfl rfl rfl rfl,
    host_lin (M := 100000) (K := 32) (N := 1) dot_S100000x32_S32x1_S100000x1_1_0_0_1_n_n rfl rfl rfl rfl rfl rfl,
    host_lin (M := 100000) (K := 32) (N := 4) dot_S100000x32_S32x4_S100000x4_1_0_0_1_n_n rfl rfl rfl rfl rfl rfl,
    host_relu]
  rfl

/-- The first result: the score head's column over the same trunk, cast to a vector. -/
theorem scores_eq : res_main_v52 (F := Ideal) m c
    = shapeCast S100000 (head (trunk (Chain.aggregate (enc (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (Chain.takeRows (enc (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (Chain.dst (m ((c.tc : Thread nD τ).loc main_arg1)))) (Chain.src (m ((c.tc : Thread nD τ).loc main_arg1)))) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)) (m ((c.tc : Thread nD τ).loc main_arg13))) shapeCasts_S100000x1_S100000 := by
  unfold res_main_v52
  simp only [
    host_lin (M := 100000) (K := 6) (N := 64) dot_S100000x6_S6x64_S100000x64_1_0_0_1_n_n rfl rfl rfl rfl rfl rfl,
    host_lin (M := 100000) (K := 64) (N := 64) dot_S100000x64_S64x64_S100000x64_1_0_0_1_n_n rfl rfl rfl rfl rfl rfl,
    host_lin (M := 100000) (K := 64) (N := 32) dot_S100000x64_S64x32_S100000x32_1_0_0_1_n_n rfl rfl rfl rfl rfl rfl,
    host_lin (M := 100000) (K := 32) (N := 1) dot_S100000x32_S32x1_S100000x1_1_0_0_1_n_n rfl rfl rfl rfl rfl rfl,
    host_lin (M := 100000) (K := 32) (N := 4) dot_S100000x32_S32x4_S100000x4_1_0_0_1_n_n rfl rfl rfl rfl rfl rfl,
    host_relu]
  rfl

end Cert.ReferenceIdeal.RefValue

end
-- ==== Proof.PreDecode.lean ====
/-
  The precondition read back: every destination index is at least zero and below 100000.

  The precondition is one truth value, the conjunction of one test per input. Its last conjunct tests, over all
  3200000 edges, that the destination (row 1 of the edge list) is at least zero and below 100000 as a signed
  number. The conjunction being true makes the last conjunct true; a reduction by "and" over all edges that comes
  out true met a true value at every edge; and a true "and" of two tests has both true.
-/
import proofs.«411923_j55843164782682_1_alg».proof.Pre_finite_inputs
import Idealize.ShloMosaic.Lib.ReduceAll
import Idealize.ShloMosaic.Lib.ValueIdx

noncomputable section

namespace Cert.PreDecode

open Idealize.ShloMosaic Idealize.ShloMosaic.ValueIdx Cert.Pre_finite_inputs

/-- A rank-0 array has one index. -/
instance : Subsingleton S_.Idx := ⟨fun a b => funext fun d => d.elim0⟩

variable [hF : Cert.Pre_finite_inputs.Facts]

/-- The destinations: row 1 of the edge list, as the precondition spells it. -/
def dst (a1 : IVec S2x3200000 32) : IVec S3200000 32 :=
  shapeCast S3200000 (extractStridedSlice S1x3200000 ![1, 0] a1 hF.slices_S2x3200000_S1x3200000_1_0) hF.shapeCasts_S1x3200000_S3200000

set_option maxRecDepth 8192 in
/-- Under the precondition every destination is at least zero and below 100000, as signed numbers. -/
theorem dst_in_range (a0 : FVec Ideal S100000x6 .f32) (a1 : IVec S2x3200000 32) (a2 : FVec Ideal S6x64 .f32) (a3 : FVec Ideal S64 .f32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x32 .f32) (a11 : FVec Ideal S32 .f32) (a12 : FVec Ideal S32x1 .f32) (a13 : FVec Ideal S1 .f32) (a14 : FVec Ideal S64x32 .f32) (a15 : FVec Ideal S32 .f32) (a16 : FVec Ideal S32x4 .f32) (a17 : FVec Ideal S4 .f32)
    (h : Cert.Pre_finite_inputs.fn (F := Ideal) a0 a1 a2 a3 a4 a5 a6 a7 a8 a9 a10 a11 a12 a13 a14 a15 a16 a17 = fun _ => 1#1) (e : S3200000.Idx) :
    IntOp.cmpi .sge (dst a1 e) 0#32 = 1#1 ∧ IntOp.cmpi .slt (dst a1 e) 100000#32 = 1#1 := by
  have h0 := congrFun h ix0
  unfold fn fn_part1 fn_part2 fn_part3 fn_part4 fn_part5 at h0
  dsimp only at h0
  change IntOp.andi _ _ = 1#1 at h0
  have h1 := (IntOp.andi_eq_one.1 h0).2
  have h2 := Host.reduce_andi_all _ _ _ _ ix0 h1 e
  change IntOp.andi _ _ = 1#1 at h2
  obtain ⟨h3, h4⟩ := IntOp.andi_eq_one.1 h2
  exact ⟨h3, h4⟩

end Cert.PreDecode

end
-- ==== Proof.lean ====
/-
  Node encoder, neighbour mean, and two prediction heads: the kernel program and its reference compute the same two
  results over the extended reals.

  Both programs take a table of 100000 rows of 6 features, an edge list of 3200000 (source, destination) pairs and
  eight weight matrices with their biases. Both compute h = the encoder of the table (layer, positive part, layer);
  then, for every row, the sum of the rows h[destination] over the edges with that source, divided by the larger of
  the number of such edges and one, added to h; then a trunk of two layers with positive parts; then a score head
  (one number per row) and a type head (four per row). The kernel program runs the encoder and the trunk with its
  heads as two pipelined regions over ten blocks of 10000 rows, and the aggregation between them on the host; the
  reference runs everything on the host on all rows at once.

  A layer's entry (a, c) is the sum over k of x(a, k) · W(k, c) plus b(c), whichever program computes it and
  however the rows are blocked, so the regions' outputs are the stages of the whole arrays. The aggregation is the
  same chain of operations in both programs but for one step: where the reference takes the rows h[destination]
  outright (an out-of-range index is clamped), the kernel program replaces a row taken at an out-of-range index by
  a fill value. Under the precondition every destination index is at least zero and below 100000, so the fill is
  never chosen and the two chains are one. No law of the extended reals that fails at an infinity is used: the
  finiteness of the float inputs is not needed, only the index range.

  The ideal pass rewrote nothing in the kernel, so there is nothing to preserve; the three programs' frames are
  their runs with the results dropped.
-/
import proofs.«411923_j55843164782682_1_alg».proof.Defs
import proofs.«411923_j55843164782682_1_alg».proof.Proof.Gen.Kernel
import proofs.«411923_j55843164782682_1_alg».proof.Proof.Gen.Kernel.Skeleton
import proofs.«411923_j55843164782682_1_alg».proof.Proof.Gen.Kernel.Launch
import proofs.«411923_j55843164782682_1_alg».proof.Proof.Gen.Kernel.Points
import proofs.«411923_j55843164782682_1_alg».proof.Proof.Gen.Kernel.Frame
import proofs.«411923_j55843164782682_1_alg».proof.Proof.Gen.KernelIdeal
import proofs.«411923_j55843164782682_1_alg».proof.Proof.Gen.KernelIdeal.Skeleton
import proofs.«411923_j55843164782682_1_alg».proof.Proof.Gen.KernelIdeal.Launch
import proofs.«411923_j55843164782682_1_alg».proof.Proof.Gen.KernelIdeal.Points
import proofs.«411923_j55843164782682_1_alg».proof.Proof.Gen.KernelIdeal.Frame
import proofs.«411923_j55843164782682_1_alg».proof.Proof.Gen.ReferenceIdeal
import proofs.«411923_j55843164782682_1_alg».proof.Proof.Gen.Pre_finite_inputs
import proofs.«411923_j55843164782682_1_alg».proof.Proof.Gen.ReferenceIdeal.Run
import proofs.«411923_j55843164782682_1_alg».proof.Proof.KernelValue
import proofs.«411923_j55843164782682_1_alg».proof.Proof.RefValue
import proofs.«411923_j55843164782682_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, under the precondition, both idealized programs run and end with
    the same score vector and the same type columns. -/
theorem algebraic : Cert.algebraic_KernelIdeal_ReferenceIdeal := by
  intro m ρ m' ρ' hpre hagree
  have hd : ∀ (c : Dev Cert.KernelIdeal.nD) e,
      IntOp.cmpi .sge (Cert.Chain.dst (m ((c : Thread Cert.KernelIdeal.nD Cert.KernelIdeal.τ).loc Cert.KernelIdeal.main_arg1)) e) 0#32 = 1#1
      ∧ IntOp.cmpi .slt (Cert.Chain.dst (m ((c : Thread Cert.KernelIdeal.nD Cert.KernelIdeal.τ).loc Cert.KernelIdeal.main_arg1)) e) 100000#32 = 1#1 :=
    fun c e => Cert.PreDecode.dst_in_range _ _ _ _ _ _ _ _ _ _ _ _ _ _ _ _ _ _ (hpre c) e
  refine ⟨_, _, Cert.KernelIdeal.KernelValue.run m ρ hd, ?_⟩
  refine (θ_run Cert.ReferenceIdeal.defs _ _).mono (fun r h c => ?_) (Cert.ReferenceIdeal.Value.run (F := Ideal) m' ρ')
  obtain ⟨h0, h1, hk⟩ := h c
  obtain ⟨a0, a1, a2, a3, a4, a5, a6, a7, a8, a9, a10, a11, a12, a13, a14, a15, a16, a17⟩ := hagree c
  refine ⟨h0.trans ?_, h1.trans ?_, hk⟩
  · rw [Cert.ReferenceIdeal.RefValue.scores_eq, a0, a1, a2, a3, a4, a5, a6, a7, a8, a9, a10, a11, a12, a13]
  · rw [Cert.ReferenceIdeal.RefValue.types_eq, a0, a1, a2, a3, a4, a5, a6, a7, a8, a9, a14, a15, a16, a17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
